-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S45x512 : Shape := ⟨2, ![45, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S45x512 : S_.BroadcastsInDim S45x512 (![] : Fin 0 → Fin S45x512.rank)
  reducesTo_S45x512_S_d0_1 : S45x512.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : IVec S131072 32) (main_arg2 : FVec F S45x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S45x512 .f32 := Host.absf main_arg2
  let main_cst_0 : FVec F S_ .f32 := constant S_ .f32 0x7F800000#32
  let main_v5 : FVec F S45x512 .f32 := broadcastInDim S45x512 ![] bcast_S_S45x512 main_cst_0
  let main_v6 : IVec S45x512 1 := cmpf .olt main_v4 main_v5
  let main_c_1 : IVec S_ 1 := constantI S_ 1 1#1
  let main_v7 : IVec S_ 1 := (fun x v => Host.reduce IntOp.andi x v reducesTo_S45x512_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 32 := constantI S_ 32 45#32
  let main_v11 : IVec S131072 32 := broadcastInDim S131072 ![] bcast_S_S131072 main_c_3
  let main_v12 : IVec S131072 1 := cmpi .slt main_arg1 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  main_v15
-- ==== Kernel.lean ====
abbrev S131072x512 : Shape := ⟨2, ![131072, 512]⟩
abbrev S131072 : Shape := ⟨1, ![131072]⟩
abbrev S45x512 : Shape := ⟨2, ![45, 512]⟩
abbrev S_ : Shape := ⟨0, ![]⟩
abbrev S128x512 : Shape := ⟨2, ![128, 512]⟩
abbrev S1 : Shape := ⟨1, ![1]⟩
abbrev S128 : Shape := ⟨1, ![128]⟩
abbrev S1x128 : Shape := ⟨2, ![1, 128]⟩
abbrev S512x128 : Shape := ⟨2, ![512, 128]⟩
abbrev S131072x1 : Shape := ⟨2, ![131072, 1]⟩
abbrev S16x128 : Shape := ⟨2, ![16, 128]⟩
abbrev S4096x512 : Shape := ⟨2, ![4096, 512]⟩
abbrev S4096x1 : Shape := ⟨2, ![4096, 1]⟩
abbrev S8x128 : Shape := ⟨2, ![8, 128]⟩
abbrev S1x1 : Shape := ⟨2, ![1, 1]⟩
abbrev S4096 : Shape := ⟨1, ![4096]⟩
abbrev S4096x128 : Shape := ⟨2, ![4096, 128]⟩

abbrev nBuf : Space → Nat
  | .hbm => 23
  | .vmem => 10
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S45x512, .f32⟩
  | .hbm, ⟨3, _⟩ => ⟨S_, .f32⟩
  | .hbm, ⟨4, _⟩ => ⟨S128x512, .f32⟩
  | .hbm, ⟨5, _⟩ => ⟨S_, .i32⟩
  | .hbm, ⟨6, _⟩ => ⟨S1, .i32⟩
  | .hbm, ⟨7, _⟩ => ⟨S128x512, .f32⟩
  | .hbm, ⟨8, _⟩ => ⟨S128x512, .f32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S512x128, .f32⟩
  | .hbm, ⟨16, _⟩ => ⟨S131072x1, .i32⟩
  | .hbm, ⟨17, _⟩ => ⟨S16x128, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S512x128, .f32⟩
  | .local _ .vmem, ⟨5, _⟩ => ⟨S1x128, .f32⟩
  | .local _ .vmem, ⟨6, _⟩ => ⟨S1x128, .f32⟩
  | .local _ .vmem, ⟨7, _⟩ => ⟨S8x128, .f32⟩
  | .local _ .vmem, ⟨8, _⟩ => ⟨S8x128, .f32⟩
  | .local _ .vmem, ⟨9, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v66 : BitVec 1 := Scalar.cmpi .eq arg1 c15_i32
  let v67 : BitVec 32 := Scalar.extui v66
  let c0_i32_28 : BitVec 32 := 0#32
  let v68 : BitVec 1 := Scalar.cmpi .ne v67 c0_i32_28
  v68

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S128x512 : S_.BroadcastsInDim S128x512 (![] : Fin 0 → Fin S128x512.rank)
  bcast_S_S1 : S_.BroadcastsInDim S1 (![] : Fin 0 → Fin S1.rank)
  reducesTo_S128x512_S128_d1 : S128x512.ReducesTo [1] S128
  h_S_ : 0 < S_.numel
  shapeCasts_S128_S1x128 : S128.ShapeCasts S1x128
  transposes_S128x512_S512x128_1_0 : S128x512.Transposes [1, 0] S512x128
  shapeCasts_S131072_S131072x1 : S131072.ShapeCasts S131072x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S4096x512_S4096 : S4096x512.Reduces [1] S4096
  shapeCasts_S4096_S4096x1 : S4096.ShapeCasts S4096x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4096x1_S4096x128 : S4096x1.Broadcasts S4096x128
  broadcasts_S1x128_S4096x128 : S1x128.Broadcasts S4096x128
  iota_S4096x128_d1_w32 : S4096x128.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x128_S4096 : S4096x128.Reduces [1] S4096
  reduces_S4096x1_S1 : S4096x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  scatter_S128x512_S1_S45x512_01_n_0_0_wf : ScatterDims.WF S128x512 S1 S45x512 [0, 1] [] [0] 0
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

def scatter_S128x512_S1_S45x512_01_n_0_0 : ScatterDims S128x512 S1 S45x512 where
  updateWindowDims := [0, 1]
  insertedWindowDims := []
  scatterDimsToOperandDims := [0]
  indexVectorDim := 0
  wf := scatter_S128x512_S1_S45x512_01_n_0_0_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S131072x512 : Shape := ⟨2, ![131072, 512]⟩
abbrev S131072 : Shape := ⟨1, ![131072]⟩
abbrev S45x512 : Shape := ⟨2, ![45, 512]⟩
abbrev S_ : Shape := ⟨0, ![]⟩
abbrev S45 : Shape := ⟨1, ![45]⟩
abbrev S512x45 : Shape := ⟨2, ![512, 45]⟩
abbrev S131072x45 : Shape := ⟨2, ![131072, 45]⟩
abbrev S131072x1 : Shape := ⟨2, ![131072, 1]⟩
abbrev S1x45 : Shape := ⟨2, ![1, 45]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S45x512, .f32⟩
  | .hbm, ⟨3, _⟩ => ⟨S131072x512, .f32⟩
  | .hbm, ⟨4, _⟩ => ⟨S_, .f32⟩
  | .hbm, ⟨5, _⟩ => ⟨S131072, .f32⟩
  | .hbm, ⟨6, _⟩ => ⟨S45x512, .f32⟩
  | .hbm, ⟨7, _⟩ => ⟨S_, .f32⟩
  | .hbm, ⟨8, _⟩ => ⟨S45, .f32⟩
  | .hbm, ⟨9, _⟩ => ⟨S_, .f32⟩
  | .hbm, ⟨10, _⟩ => ⟨S131072, .f32⟩
  | .hbm, ⟨11, _⟩ => ⟨S_, .f32⟩
  | .hbm, ⟨12, _⟩ => ⟨S45, .f32⟩
  | .hbm, ⟨13, _⟩ => ⟨S512x45, .f32⟩
  | .hbm, ⟨14, _⟩ => ⟨S131072x45, .f32⟩
  | .hbm, ⟨15, _⟩ => ⟨S131072x1, .f32⟩
  | .hbm, ⟨16, _⟩ => ⟨S1x45, .f32⟩
  | .hbm, ⟨17, _⟩ => ⟨S131072x45, .f32⟩
  | .hbm, ⟨18, _⟩ => ⟨S131072x45, .f32⟩
  | .hbm, ⟨19, _⟩ => ⟨S131072x45, .f32⟩
  | .hbm, ⟨20, _⟩ => ⟨S_, .f32⟩
  | .hbm, ⟨21, _⟩ => ⟨S131072x45, .f32⟩
  | .hbm, ⟨22, _⟩ => ⟨S131072x45, .f32⟩
  | .hbm, ⟨23, _⟩ => ⟨S131072x45, .f32⟩
  | .hbm, ⟨24, _⟩ => ⟨S131072x1, .f32⟩
  | .hbm, ⟨25, _⟩ => ⟨S1x45, .f32⟩
  | .hbm, ⟨26, _⟩ => ⟨S131072x45, .f32⟩
  | .hbm, ⟨27, _⟩ => ⟨S131072x45, .f32⟩
  | .hbm, ⟨28, _⟩ => ⟨S131072x45, .f32⟩
  | .hbm, ⟨29, _⟩ => ⟨S_, .f32⟩
  | .hbm, ⟨30, _⟩ => ⟨S131072x45, .f32⟩
  | .hbm, ⟨31, _⟩ => ⟨S131072x45, .f32⟩
  | .hbm, ⟨32, _⟩ => ⟨S131072x45, .f32⟩
  | .hbm, ⟨33, _⟩ => ⟨S_, .f32⟩
  | .hbm, ⟨34, _⟩ => ⟨S131072x45, .f32⟩
  | .hbm, ⟨35, _⟩ => ⟨S131072x45, .f32⟩
  | .hbm, ⟨36, _⟩ => ⟨S_, .f32⟩
  | .hbm, ⟨37, _⟩ => ⟨S131072x45, .f32⟩
  | .hbm, ⟨38, _⟩ => ⟨S131072x45, .f32⟩
  | .hbm, ⟨39, _⟩ => ⟨S131072x45, .f32⟩
  | .hbm, ⟨40, _⟩ => ⟨S131072x45, .f32⟩
  | .hbm, ⟨41, _⟩ => ⟨S131072x45, .f32⟩
  | .hbm, ⟨42, _⟩ => ⟨S131072x1, .i32⟩
  | .hbm, ⟨43, _⟩ => ⟨S_, .i32⟩
  | .hbm, ⟨44, _⟩ => ⟨S131072x1, .i32⟩
  | .hbm, ⟨45, _⟩ => ⟨S131072x1, .i1⟩
  | .hbm, ⟨46, _⟩ => ⟨S_, .i32⟩
  | .hbm, ⟨47, _⟩ => ⟨S131072x1, .i32⟩
  | .hbm, ⟨48, _⟩ => ⟨S131072x1, .i32⟩
  | .hbm, ⟨49, _⟩ => ⟨S131072x1, .i32⟩
  | .hbm, ⟨50, _⟩ => ⟨S131072x1x1, .i32⟩
  | .hbm, ⟨51, _⟩ => ⟨S1, .i32⟩
  | .hbm, ⟨52, _⟩ => ⟨S_, .i32⟩
  | .hbm, ⟨53, _⟩ => ⟨S131072x1x1, .i32⟩
  | .hbm, ⟨54, _⟩ => ⟨S131072x1x1, .i1⟩
  | .hbm, ⟨55, _⟩ => ⟨S1x1x1, .i32⟩
  | .hbm, ⟨56, _⟩ => ⟨S131072x1x1, .i32⟩
  | .hbm, ⟨57, _⟩ => ⟨S131072x1x1, .i1⟩
  | .hbm, ⟨58, _⟩ => ⟨S131072x1x1, .i1⟩
  | .hbm, ⟨59, _⟩ => ⟨S_, .i1⟩
  | .hbm, ⟨60, _⟩ => ⟨S131072x1, .i1⟩
  | .hbm, ⟨61, _⟩ => ⟨S131072x1, .f32⟩
  | .hbm, ⟨62, _⟩ => ⟨S_, .f32⟩
  | .hbm, ⟨63, _⟩ => ⟨S131072x1, .f32⟩
  | .hbm, ⟨64, _⟩ => ⟨S131072x1, .f32⟩
  | .hbm, ⟨65, _⟩ => ⟨S131072, .f32⟩
  | .hbm, ⟨66, _⟩ => ⟨S_, .f32⟩
  | .hbm, ⟨67, _⟩ => ⟨S131072, .f32⟩
  | .hbm, ⟨68, _⟩ => ⟨S131072, .f32⟩
  | .hbm, ⟨69, _⟩ => ⟨S131072, .f32⟩
  | .hbm, ⟨70, _⟩ => ⟨S131072, .f32⟩
  | .hbm, ⟨71, _⟩ => ⟨S131072, .f32⟩
  | .hbm, ⟨72, _⟩ => ⟨S_, .f32⟩
  | .hbm, ⟨73, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_cst : Ref sig .tc := ⟨.hbm, 62, rfl⟩
abbrev main_call0_v14 : Ref sig .tc := ⟨.hbm, 63, rfl⟩
abbrev main_v32 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  reducesTo_S45x512_S45_d1 : S45x512.ReducesTo [1] S45
  transposes_S45x512_S512x45_1_0 : S45x512.Transposes [1, 0] S512x45
  bcast_S131072_S131072x1_0 : S131072.BroadcastsInDim S131072x1 (![0] : Fin 1 → Fin S131072x1.rank)
  bcast_S45_S1x45_1 : S45.BroadcastsInDim S1x45 (![1] : Fin 1 → Fin S1x45.rank)
  bcast_S131072x1_S131072x45_0_1 : S131072x1.BroadcastsInDim S131072x45 (![0, 1] : Fin 2 → Fin S131072x45.rank)
  bcast_S1x45_S131072x45_0_1 : S1x45.BroadcastsInDim S131072x45 (![0, 1] : Fin 2 → Fin S131072x45.rank)
  bcast_S_S131072x45 : S_.BroadcastsInDim S131072x45 (![] : Fin 0 → Fin S131072x45.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  shapeCasts_S131072x1_S131072 : S131072x1.ShapeCasts S131072
  reducesTo_S131072x45_S131072_d1 : S131072x45.ReducesTo [1] S131072
  reducesTo_S131072_S_d0 : S131072.ReducesTo [0] S_
  dot_S131072x512_S512x45_S131072x45_1_0_0_1_n_n_wf : DotDims.WF S131072x512 S512x45 S131072x45 [1] [0] [0] [1] [] []
  gather_S131072x45_S131072x1x1_S131072x1_n_1_0_0_1_2_11_wf : GatherDims.WF S131072x45 S131072x1x1 S131072x1 [] [1] [0] [1] [0] 2 ![1, 1]

variable [Facts₀]

def dot_S131072x512_S512x45_S131072x45_1_0_0_1_n_n : DotDims S131072x512 S512x45 S131072x45 where
  lhsContracting := [1]
  rhsContracting := [0]
  lhsNonContracting := [0]
  rhsNonContracting := [1]
  lhsBatch := []
  rhsBatch := []
  wf := dot_S131072x512_S512x45_S131072x45_1_0_0_1_n_n_wf
def gather_S131072x45_S131072x1x1_S131072x1_n_1_0_0_1_2_11 : GatherDims S131072x45 S131072x1x1 S131072x1 where
  offsetDims := []
  collapsedSliceDims := [1]
  operandBatchingDims := [0]
  startIndicesBatchingDims := [0]
  startIndexMap := [1]
  indexVectorDim := 2
  sliceSizes := ![1, 1]
  wf := gather_S131072x45_S131072x1x1_S131072x1_n_1_0_0_1_2_11_wf

class Facts : Prop extends Facts₀ where

variable [Facts]
-- ==== Proof.Pieces.lean ====
/-
  What each of the body's three cases leaves in the one-entry scratch and in the output block, as values.

  The body keeps a one-entry running sum. At the first point of a core's run it stores 0 and then adds the block's
  loss to what it reads back (so: 0 plus the block's loss); at every other point it adds the block's loss to what the
  point before left; at the last point of a core's run it also fills the core's [8,128] output block with the new sum.
  Each value is the covering store's stored term with its loads read through the whole buffers they load.
-/
import proofs.«406120_j72567767433948_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The lane numbers 0 … 127 along a row. -/
abbrev lanes : IVec S4096x128 32 := iota .tc S4096x128 32 [1] iota_S4096x128_d1_w32

/-- A middle point of a core's run (neither its first nor its last): the scratch ends at the old value plus the block's loss. -/
theorem sout_B (c : Dev nD) (i : grid0.Coords) (a2 : Memref sig .tc .vmem S4096x512 .f32) (h2 : a2.IsWhole) (a3 : Memref sig .tc .vmem S4096x1 .i32) (h3 : a3.IsWhole) (a4 : Memref sig .tc .vmem S512x128 .f32) (h4 : a4.IsWhole) (a5 : Memref sig .tc .vmem S1x128 .f32) (h5 : a5.IsWhole) (a6 : Memref sig .tc .vmem S1x128 .f32) (h6 : a6.IsWhole) (a7 : Memref sig .tc .vmem S8x128 .f32) (h7 : a7.IsWhole) (a8 : Memref sig .tc .vmem S1x1 .f32) (h8 : a8.IsWhole) (hc0 : ¬cond0_0 i) (hc1 : ¬cond0_1 i) (x0 : Vec F S4096x512 .f32) (x1 : Vec F S4096x1 .i32) (x2 : Vec F S512x128 .f32) (x3 : Vec F S1x128 .f32) (x4 : Vec F S1x128 .f32) (xs0 : Vec F S1x1 .f32) :
    sout0_B_0 c i a2 h2 a3 h3 a4 h4 a5 h5 a6 h6 a7 h7 a8 h8 hc0 hc1 x0 x1 x2 x3 x4 xs0 = k0_pay1 (k0_pay4 x0 x2 x3 x4) lanes x1 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S4096x512) hz, View.ld_unit_zero (S := S4096x1) hz, View.ld_unit_zero (S := S512x128) hz,
    View.ld_unit_zero (S := S1x128) hz, View.ld_unit_zero (S := S1x1) hz, View.ld_unit_zero (S := S8x128) hz,
    View.readCov_unit_zero (S := S1x1) _ hz]

/-- The last point of a core's run: the scratch as at a middle point. -/
theorem sout_C (c : Dev nD) (i : grid0.Coords) (a2 : Memref sig .tc .vmem S4096x512 .f32) (h2 : a2.IsWhole) (a3 : Memref sig .tc .vmem S4096x1 .i32) (h3 : a3.IsWhole) (a4 : Memref sig .tc .vmem S512x128 .f32) (h4 : a4.IsWhole) (a5 : Memref sig .tc .vmem S1x128 .f32) (h5 : a5.IsWhole) (a6 : Memref sig .tc .vmem S1x128 .f32) (h6 : a6.IsWhole) (a7 : Memref sig .tc .vmem S8x128 .f32) (h7 : a7.IsWhole) (a8 : Memref sig .tc .vmem S1x1 .f32) (h8 : a8.IsWhole) (hc0 : ¬cond0_0 i) (hc1 : cond0_1 i) (x0 : Vec F S4096x512 .f32) (x1 : Vec F S4096x1 .i32) (x2 : Vec F S512x128 .f32) (x3 : Vec F S1x128 .f32) (x4 : Vec F S1x128 .f32) (xs0 : Vec F S1x1 .f32) :
    sout0_C_0 c i a2 h2 a3 h3 a4 h4 a5 h5 a6 h6 a7 h7 a8 h8 hc0 hc1 x0 x1 x2 x3 x4 xs0 = k0_pay1 (k0_pay4 x0 x2 x3 x4) lanes x1 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S4096x512) hz, View.ld_unit_zero (S := S4096x1) hz, View.ld_unit_zero (S := S512x128) hz,
    View.ld_unit_zero (S := S1x128) hz, View.ld_unit_zero (S := S1x1) hz, View.ld_unit_zero (S := S8x128) hz,
    View.readCov_unit_zero (S := S1x1) _ hz]

/-- The last point of a core's run: the output block is the new scratch value in every entry. -/
theorem out_C (c : Dev nD) (i : grid0.Coords) (a2 : Memref sig .tc .vmem S4096x512 .f32) (h2 : a2.IsWhole) (a3 : Memref sig .tc .vmem S4096x1 .i32) (h3 : a3.IsWhole) (a4 : Memref sig .tc .vmem S512x128 .f32) (h4 : a4.IsWhole) (a5 : Memref sig .tc .vmem S1x128 .f32) (h5 : a5.IsWhole) (a6 : Memref sig .tc .vmem S1x128 .f32) (h6 : a6.IsWhole) (a7 : Memref sig .tc .vmem S8x128 .f32) (h7 : a7.IsWhole) (a8 : Memref sig .tc .vmem S1x1 .f32) (h8 : a8.IsWhole) (hc0 : ¬cond0_0 i) (hc1 : cond0_1 i) (x0 : Vec F S4096x512 .f32) (x1 : Vec F S4096x1 .i32) (x2 : Vec F S512x128 .f32) (x3 : Vec F S1x128 .f32) (x4 : Vec F S1x128 .f32) (xs0 : Vec F S1x1 .f32) :
    out0_C_5 c i a2 h2 a3 h3 a4 h4 a5 h5 a6 h6 a7 h7 a8 h8 hc0 hc1 x0 x1 x2 x3 x4 xs0 = k0_pay2 (k0_pay1 (k0_pay4 x0 x2 x3 x4) lanes x1 xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S4096x512) hz, View.ld_unit_zero (S := S4096x1) hz, View.ld_unit_zero (S := S512x128) hz,
    View.ld_unit_zero (S := S1x128) hz, View.ld_unit_zero (S := S1x1) hz, View.ld_unit_zero (S := S8x128) hz,
    View.readCov_unit_zero (S := S1x1) _ hz]

/-- The first point of a core's run: the scratch is reset, then the block's loss added: 0 plus the block's loss. -/
theorem sout_A (c : Dev nD) (i : grid0.Coords) (a2 : Memref sig .tc .vmem S4096x512 .f32) (h2 : a2.IsWhole) (a3 : Memref sig .tc .vmem S4096x1 .i32) (h3 : a3.IsWhole) (a4 : Memref sig .tc .vmem S512x128 .f32) (h4 : a4.IsWhole) (a5 : Memref sig .tc .vmem S1x128 .f32) (h5 : a5.IsWhole) (a6 : Memref sig .tc .vmem S1x128 .f32) (h6 : a6.IsWhole) (a7 : Memref sig .tc .vmem S8x128 .f32) (h7 : a7.IsWhole) (a8 : Memref sig .tc .vmem S1x1 .f32) (h8 : a8.IsWhole) (hc0 : cond0_0 i) (hc1 : ¬cond0_1 i) (x0 : Vec F S4096x512 .f32) (x1 : Vec F S4096x1 .i32) (x2 : Vec F S512x128 .f32) (x3 : Vec F S1x128 .f32) (x4 : Vec F S1x128 .f32) :
    sout0_A_0 c i a2 h2 a3 h3 a4 h4 a5 h5 a6 h6 a7 h7 a8 h8 hc0 hc1 x0 x1 x2 x3 x4 = k0_pay1 (k0_pay4 x0 x2 x3 x4) lanes x1 (k0_pay3 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread, h7.read_unread, h8.read_unread,
    View.ld_unit_zero (S := S4096x512) hz, View.ld_unit_zero (S := S4096x1) hz, View.ld_unit_zero (S := S512x128) hz,
    View.ld_unit_zero (S := S1x128) hz, View.ld_unit_zero (S := S1x1) hz, View.ld_unit_zero (S := S8x128) hz,
    View.readCov_unit_zero (S := S1x1) _ hz]

end Cert.KernelIdeal.Pieces

end
-- ==== Proof.Blocks.lean ====
/-
  The windows' blocks as entries of the arrays the region finds.

  The grid is 2 × 16 and point t = 16·(core) + (step) reads feature rows and labels 4096·t … 4096·t + 4095: the index
  map sends (core, step) to block 16·core + step, which is t itself. The transposed table and the two [1,128] vectors
  are single blocks, the same at every point.
-/
import proofs.«406120_j72567767433948_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The five arrays the region reads, as it finds them, each at its literal type. -/
abbrev xArr (c : Dev nD) : FVec Ideal S131072x512 .f32 := V m c main_arg0
abbrev lCol (c : Dev nD) : IVec S131072x1 32 := V m c main_v9
abbrev pTArr (c : Dev nD) : FVec Ideal S512x128 .f32 := V m c main_v8
abbrev p2Arr (c : Dev nD) : FVec Ideal S1x128 .f32 := V m c main_v5
abbrev spArr (c : Dev nD) : FVec Ideal S1x128 .f32 := V m c main_v7

/-- The five input blocks at a point, each at its literal type. -/
abbrev xBlk (c : Dev nD) (t : Fin cfg0.N) : FVec Ideal S4096x512 .f32 := iblk m c 0 t
abbrev lBlk (c : Dev nD) (t : Fin cfg0.N) : IVec S4096x1 32 := iblk m c 1 t
abbrev pTBlk (c : Dev nD) (t : Fin cfg0.N) : FVec Ideal S512x128 .f32 := iblk m c 2 t
abbrev p2Blk (c : Dev nD) (t : Fin cfg0.N) : FVec Ideal S1x128 .f32 := iblk m c 3 t
abbrev spBlk (c : Dev nD) (t : Fin cfg0.N) : FVec Ideal S1x128 .f32 := iblk m c 4 t

/-- The printed index maps over the 32 points: windows 0 and 1 sit at block t, windows 2, 3, 4 at block 0. -/
theorem idx_facts : ∀ t : Fin cfg0.N,
    win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 :=
  (by decide +kernel : ∀ t : Fin grid0.N, _)

/-- Row 4096·t + r of the batch. -/
abbrev grow (t : Fin cfg0.N) (r : Fin 4096) : Fin 131072 :=
  ⟨4096 * t.val + r.val, by have := t.isLt; have h : cfg0.N = 32 := N_0; have := r.isLt; omega⟩

/-- The feature block at a point holds the batch's rows 4096·t + r. -/
theorem xBlk_apply (c : Dev nD) (t : Fin cfg0.N) (r : Fin 4096) (k : Fin 512) :
    xBlk m c t (ix2 r k) = xArr m c (ix2 (grow t r) k) := by
  obtain ⟨h0, h1, -⟩ := idx_facts t
  unfold xBlk iblk
  rw [View.read_apply]
  show V m c main_arg0 _ = V m c main_arg0 _
  congr 1
  funext a
  apply Fin.ext
  match a with
  | ⟨0, _⟩ => show win0_0.index t 0 * 4096 + 1 * r.val = 4096 * t.val + r.val; rw [h0]; omega
  | ⟨1, _⟩ => show win0_0.index t 1 * 512 + 1 * k.val = k.val; rw [h1]; omega

/-- The label block at a point holds the labels of rows 4096·t + r. -/
theorem lBlk_apply (c : Dev nD) (t : Fin cfg0.N) (r : Fin 4096) :
    lBlk m c t (ix2 r (0 : Fin 1)) = lCol m c (ix2 (grow t r) (0 : Fin 1)) := by
  obtain ⟨-, -, h0, h1, -⟩ := idx_facts t
  unfold lBlk iblk
  rw [View.read_apply]
  show V m c main_v9 _ = V m c main_v9 _
  congr 1
  funext a
  apply Fin.ext
  match a with
  | ⟨0, _⟩ => show win0_1.index t 0 * 4096 + 1 * r.val = 4096 * t.val + r.val; rw [h0]; omega
  | ⟨1, _⟩ => show win0_1.index t 1 * 1 + 1 * 0 = 0; rw [h1]

/-- The transposed table's block is the whole table at every point. -/
theorem pTBlk_apply (c : Dev nD) (t : Fin cfg0.N) (k : Fin 512) (j : Fin 128) :
    pTBlk m c t (ix2 k j) = pTArr m c (ix2 k j) := by
  obtain ⟨-, -, -, -, h0, h1, -⟩ := idx_facts t
  unfold pTBlk iblk
  rw [View.read_apply]
  show V m c main_v8 _ = V m c main_v8 _
  congr 1
  funext a
  apply Fin.ext
  match a with
  | ⟨0, _⟩ => show win0_2.index t 0 * 512 + 1 * k.val = k.val; rw [h0]; omega
  | ⟨1, _⟩ => show win0_2.index t 1 * 128 + 1 * j.val = j.val; rw [h1]; omega

/-- The squared-norm vector's block is the whole vector at every point. -/
theorem p2Blk_apply (c : Dev nD) (t : Fin cfg0.N) (j : Fin 128) :
    p2Blk m c t (ix2 (0 : Fin 1) j) = p2Arr m c (ix2 (0 : Fin 1) j) := by
  obtain ⟨-, -, -, -, -, -, h0, h1, -⟩ := idx_facts t
  unfold p2Blk iblk
  rw [View.read_apply]
  show V m c main_v5 _ = V m c main_v5 _
  congr 1
  funext a
  apply Fin.ext
  match a with
  | ⟨0, _⟩ => show win0_3.index t 0 * 1 + 1 * 0 = 0; rw [h0]
  | ⟨1, _⟩ => show win0_3.index t 1 * 128 + 1 * j.val = j.val; rw [h1]; omega

/-- The row-sum vector's block is the whole vector at every point. -/
theorem spBlk_apply (c : Dev nD) (t : Fin cfg0.N) (j : Fin 128) :
    spBlk m c t (ix2 (0 : Fin 1) j) = spArr m c (ix2 (0 : Fin 1) j) := by
  obtain ⟨-, -, -, -, -, -, -, -, h0, h1⟩ := idx_facts t
  unfold spBlk iblk
  rw [View.read_apply]
  show V m c main_v7 _ = V m c main_v7 _
  congr 1
  funext a
  apply Fin.ext
  match a with
  | ⟨0, _⟩ => show win0_4.index t 0 * 1 + 1 * 0 = 0; rw [h0]
  | ⟨1, _⟩ => show win0_4.index t 1 * 128 + 1 * j.val = j.val; rw [h1]; omega

end Cert.KernelIdeal.Blocks

end
-- ==== Proof.Spec.lean ====
/-
  The specification both programs are compared with: the proxy-NCA loss of a batch of feature rows against a table of
  45 proxy rows, as ONE function of the three argument arrays over the extended reals.

  For a feature row x and a proxy row p (both of length 512) the squared shifted distance is the expanded form
      d2 x p = ((∑ x² + ∑ p²) − 2·∑ x·p) + (2ε)·(∑ x − ∑ p) + 512·ε²
  with the three float literals read as the exact values their words denote; the similarity is
      ee x p = exp (−√(max (d2 x p) 0)).
  A row with label l contributes  −log (e_l / (∑_j e_j − e_l)),  e_j = ee x p_j over the 45 proxies, and the loss is the
  sum of the rows' contributions.  The label is a natural number; `pick` reads position l of a 45-vector and is 0 when
  l is not below 45 (a case no statement here uses).
-/
import Idealize.ShloMosaic.PureOps.Ideal
import Idealize.ShloMosaic.PureOps.Ideal.Laws
import Idealize.ShloMosaic.Lib.ValueIdx

noncomputable section

namespace Cert.Nca

open Idealize.ShloMosaic

/-- The literal 2.0. -/
abbrev k2 : EReal := Ideal.ofBits .f32 0x40000000#32
/-- The literal 2ε (the float nearest 2e-6). -/
abbrev kE : EReal := Ideal.ofBits .f32 0x360637BD#32
/-- The literal 512·ε² (the float nearest 5.12e-10). -/
abbrev kD : EReal := Ideal.ofBits .f32 0x300CBCCC#32

/-- The expanded squared distance of a feature row and a proxy row. -/
def d2 (x p : Fin 512 → EReal) : EReal :=
  (((∑ k, x k * x k) + (∑ k, p k * p k)) - k2 * (∑ k, x k * p k)) + kE * ((∑ k, x k) - (∑ k, p k)) + kD

/-- The similarity exp (−distance). -/
def ee (x p : Fin 512 → EReal) : EReal := Ideal.exp (-(Ideal.sqrt (max (d2 x p) 0)))

/-- Position `l` of a 45-vector (0 outside the range). -/
def pick (e : Fin 45 → EReal) (l : ℕ) : EReal := if h : l < 45 then e ⟨l, h⟩ else 0

/-- One row's contribution: minus the log of the labelled similarity over the sum of the others. -/
def rowLoss (e : Fin 45 → EReal) (l : ℕ) : EReal :=
  -(Ideal.log (Ideal.div (pick e l) ((∑ j, e j) - pick e l)))

/-- The loss: the sum of the rows' contributions. -/
def total (X : Fin 131072 → Fin 512 → EReal) (P : Fin 45 → Fin 512 → EReal) (lab : Fin 131072 → ℕ) : EReal :=
  ∑ b, rowLoss (fun j => ee (X b) (P j)) (lab b)

/-- The first 45 entries of a 128-vector. -/
def restrict (E : Fin 128 → EReal) : Fin 45 → EReal := fun j => E ⟨j.val, Nat.lt_of_lt_of_le j.isLt (by decide)⟩

end Cert.Nca

end
-- ==== Proof.Payloads.lean ====
/-
  The kernel body's four stored values, read at an index over the extended reals.

  * `pay4_apply`: the similarity the body computes for row r of its feature block and lane j:
      exp (−√(max (((∑ x² + p2_j) − 2·∑_k x_k·pT_{k,j}) + 2ε·(∑ x − sp_j) + 512ε²) 0)),
    p2, sp the two [1,128] row vectors and pT the [512,128] matrix the body loads (a format change is the identity,
    the matrix product into a zero accumulator is the plain sum, 0 − s is −s).
  * `pay1_apply`: the new scratch value: the old one plus the sum over the block's 4096 rows of
      −log (pos_r / den_r), pos_r the lanes' sum with every lane but the labelled one zeroed, den_r with the labelled
    lane zeroed; lanes from 45 on are zeroed in both (lane j's number is the word `BitVec.ofNat 32 j`).
  * `pay2_apply`: the [8,128] block stored at a core's last point holds the scratch's one entry everywhere.
  * `pay3_apply`: the reset stores 0.
-/
import proofs.«406120_j72567767433948_2_alg».proof.Proof.Gen.KernelIdeal.Skeleton
import proofs.«406120_j72567767433948_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Pay

open Cert.KernelIdeal Cert.KernelIdeal.Gen Idealize.ShloMosaic Idealize.ShloMosaic.ValueIdx

/-! ## Layout operations of a kept unit column, read at an index given by coordinates -/

section Layout
variable {α : Type}

/-- An `[a]` array cast to the column `[a, 1]` reads, at `(i, u)`, the operand at `i`, whatever the unit coordinate. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a `[1, 1]` array broadcast to `[a, b]` is read everywhere. -/
private theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A `[1, 1]` shape has the one index `(0, 0)`. -/
private theorem idx11_eq (i : (⟨2, ![1, 1]⟩ : Shape).Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

end Layout

/-! ## Sums along one axis -/

/-- The sum along the lanes of an `[m, n]` vector, read at row `r`: the `Fin n`-indexed sum of the row's entries. -/
private theorem laneSum_apply {m n : ℕ} (src : FVec Ideal ⟨2, ![m, n]⟩ .f32) (h : Shape.Reduces ⟨2, ![m, n]⟩ [1] ⟨1, ![m]⟩)
    (hφ : FKind.Formats .f32) (hacc : (0x00000000#32 : BitVec 32) = 0x00000000#32) (r : Fin m) :
    multiReduction .add [1] ⟨1, ![m]⟩ src 0x00000000#32 h hφ hacc (ix1 r) = ∑ k : Fin n, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The sum down the rows of a column `[m, 1]`, read at its one index: the `Fin m`-indexed sum of the column. -/
private theorem colSum_apply {m : ℕ} (src : FVec Ideal ⟨2, ![m, 1]⟩ .f32) (h : Shape.Reduces ⟨2, ![m, 1]⟩ [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin m, src (ix2 r (0 : Fin 1)) := by
  refine (Ideal.multiReduction_add_single src 0x00000000#32 h hφ hacc (ix1 u)).trans ?_
  refine Finset.sum_congr rfl fun k _ => congrArg src ?_
  funext a
  match a with
  | ⟨0, _⟩ => rfl
  | ⟨1, _⟩ => exact Fin.ext (by show u.val = 0; omega)

/-! ## The matrix product into a zero accumulator, read at an index -/

/-- The left operand's index at output `i` and contraction index `q` keeps the output's row … -/
private theorem lhs_mm_0 (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
/-- … and has the contraction coordinate as its column. -/
private theorem lhs_mm_1 (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q
/-- The right operand's index has the contraction coordinate as its row … -/
private theorem rhs_mm_0 (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q
/-- … and keeps the output's column. -/
private theorem rhs_mm_1 (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The product of a `[4096, 512]` and a `[512, 128]` operand into the zero accumulator, at `(r, j)`: the sum over the 512
    contraction coordinates of the operands' products. -/
private theorem mm_apply {φ₁ φ₂ : FTy} (a : FVec Ideal S4096x512 φ₁) (b : FVec Ideal S512x128 φ₂) (r : Fin 4096) (j : Fin 128) :
    matmul dot_S4096x512_S512x128_S4096x128_1_0_0_1_n_n none a b (constant (F := Ideal) S4096x128 .f32 0x00000000#32) (ix2 r j)
      = ∑ k : Fin 512, a (ix2 r k) * b (ix2 k j) := by
  simp only [matmul]
  rw [Ideal.matmul_constant_zero_apply, ← Equiv.sum_comp (ValueIdx.contrEquiv1 dot_S4096x512_S512x128_S4096x128_1_0_0_1_n_n 512 rfl rfl).symm]
  refine Finset.sum_congr rfl fun k _ => ?_
  have hk := ValueIdx.contrEquiv1_symm_val dot_S4096x512_S512x128_S4096x128_1_0_0_1_n_n 512 rfl rfl k
  have el : dot_S4096x512_S512x128_S4096x128_1_0_0_1_n_n.lhsIdx (ix2 r j) ((ValueIdx.contrEquiv1 dot_S4096x512_S512x128_S4096x128_1_0_0_1_n_n 512 rfl rfl).symm k) = ix2 r k := funext fun c => Fin.ext (by
    match c with
    | ⟨0, _⟩ => exact lhs_mm_0 _ _
    | ⟨1, _⟩ => exact (lhs_mm_1 _ _).trans hk)
  have er : dot_S4096x512_S512x128_S4096x128_1_0_0_1_n_n.rhsIdx (ix2 r j) ((ValueIdx.contrEquiv1 dot_S4096x512_S512x128_S4096x128_1_0_0_1_n_n 512 rfl rfl).symm k) = ix2 k j := funext fun c => Fin.ext (by
    match c with
    | ⟨0, _⟩ => exact (rhs_mm_0 _ _).trans hk
    | ⟨1, _⟩ => exact rhs_mm_1 _ _)
  rw [el, er]

/-! ## The pointwise functions read at an index -/

section Pointwise
variable {s : Shape} {φ : FTy}

private theorem exp_apply (a : FVec Ideal s φ) (i : s.Idx) : exp a i = Ideal.exp (a i) := rfl
private theorem sqrt_apply (a : FVec Ideal s φ) (i : s.Idx) : sqrt a i = Ideal.sqrt (a i) := rfl
private theorem log_apply (a : FVec Ideal s φ) (i : s.Idx) : log a i = Ideal.log (a i) := rfl
private theorem cmpi_apply {w : ℕ} (p : CmpIPredicate) (x y : IVec s w) (i : s.Idx) : cmpi p x y i = IntOp.cmpi p (x i) (y i) := rfl
private theorem ofBits_apply (b : BitVec φ.bits) : (Scalar.ofBits φ b : Ideal φ) = Ideal.ofBits φ b := rfl

end Pointwise

/-- A lane sum kept as a column and broadcast back along the lanes reads, at `(r, j)`, row `r`'s sum. -/
private theorem keepSum_apply {n : ℕ} (src : FVec Ideal ⟨2, ![4096, n]⟩ .f32) (h : Shape.Reduces ⟨2, ![4096, n]⟩ [1] S4096)
    (hφ : FKind.Formats .f32) (hacc : (0x00000000#32 : BitVec 32) = 0x00000000#32) (hc : S4096.ShapeCasts S4096x1)
    (hb : S4096x1.Broadcasts S4096x128) (r : Fin 4096) (j : Fin 128) :
    broadcastTo S4096x128 (shapeCast S4096x1 (multiReduction .add [1] S4096 src 0x00000000#32 h hφ hacc) hc) hb (ix2 r j)
      = ∑ k : Fin n, src (ix2 r k) :=
  (broadcastTo_a1_ab_apply _ hb r j).trans ((shapeCast_a_a1_apply _ hc r 0).trans (laneSum_apply src h hφ hacc r))

/-- The similarity at row `r`, lane `j`. -/
theorem pay4_apply (x0 : FVec Ideal S4096x512 .f32) (x2 : FVec Ideal S512x128 .f32) (x3 x4 : FVec Ideal S1x128 .f32)
    (r : Fin 4096) (j : Fin 128) :
    k0_pay4 (F := Ideal) x0 x2 x3 x4 (ix2 r j)
      = Ideal.exp (-(Ideal.sqrt (max
          ((((∑ k : Fin 512, x0 (ix2 r k) * x0 (ix2 r k)) + x3 (ix2 (0 : Fin 1) j))
              - Cert.Nca.k2 * (∑ k : Fin 512, x0 (ix2 r k) * x2 (ix2 k j)))
            + Cert.Nca.kE * ((∑ k : Fin 512, x0 (ix2 r k)) - x4 (ix2 (0 : Fin 1) j)) + Cert.Nca.kD) 0))) := by
  unfold k0_pay4
  rw [shapeCast_self, shapeCast_self, shapeCast_self]
  simp only [exp_apply, sqrt_apply, subf_apply, addf_apply, mulf_apply, maximumf_apply, broadcast_apply, ofBits_apply]
  rw [keepSum_apply, keepSum_apply, broadcastTo_1b_ab_apply, broadcastTo_1b_ab_apply, mm_apply]
  simp only [truncf_apply]
  rw [Ideal.ofBits_zero_f32, zero_sub]
  rfl

/-! ## The masked lanes -/

/-- Lane `j`'s number is below 45, as a signed word, exactly when `j` is. -/
private theorem lane_lt_iff (j : Fin 128) : IntOp.cmpi .slt (BitVec.ofNat 32 j.val) 45#32 = 1#1 ↔ j.val < 45 := by
  unfold IntOp.cmpi
  exact StableHlo.Predicate.slt_ofNat_iff j.val 45 (by have := j.isLt; omega) (by omega)

/-- A select on a bit that is `1` exactly when `P` holds is the `if` on `P`. -/
private theorem select_of_iff {α : Type} {c : BitVec 1} {P : Prop} [Decidable P] (h : c = 1#1 ↔ P) (a b : α) :
    Scalar.select c a b = if P then a else b := by
  by_cases hp : P
  · rw [if_pos hp, h.mpr hp]; exact select_one a b
  · rw [if_neg hp, eq_zero_of_ne_one (fun hc => hp (h.mp hc))]; exact select_zero a b

/-- The similarities with the lanes from 45 on zeroed, at `(r, j)`. -/
private theorem masked_apply (e : FVec Ideal S4096x128 .f32) (r : Fin 4096) (j : Fin 128) :
    select (cmpi .slt (iota .tc S4096x128 32 [1] iota_S4096x128_d1_w32) (broadcast S4096x128 45#32)) e
        (broadcast S4096x128 (Scalar.ofBits .f32 0x00000000#32)) (ix2 r j)
      = if j.val < 45 then e (ix2 r j) else 0 := by
  show Scalar.select (IntOp.cmpi .slt (iota .tc S4096x128 32 [1] iota_S4096x128_d1_w32 (ix2 r j)) 45#32) (e (ix2 r j))
      (Ideal.ofBits .f32 0x00000000#32) = _
  rw [iota_single_apply, Ideal.ofBits_zero_f32]
  exact select_of_iff (lane_lt_iff j) _ _

/-- Lane `j`'s number against row `r`'s label, the label column broadcast along the lanes. -/
private theorem isLabel_iff (x1 : IVec S4096x1 32) (r : Fin 4096) (j : Fin 128) :
    cmpi .eq (iota .tc S4096x128 32 [1] iota_S4096x128_d1_w32) (broadcastTo S4096x128 x1 broadcasts_S4096x1_S4096x128) (ix2 r j) = 1#1
      ↔ BitVec.ofNat 32 j.val = x1 (ix2 r (0 : Fin 1)) := by
  rw [cmpi_apply, iota_single_apply, broadcastTo_a1_ab_apply]
  exact StableHlo.Predicate.cmpi_eq_iff

/-- The labelled lane kept, every other lane zeroed. -/
private theorem pos_entry (e : FVec Ideal S4096x128 .f32) (x1 : IVec S4096x1 32) (r : Fin 4096) (j : Fin 128) :
    select (cmpi .eq (iota .tc S4096x128 32 [1] iota_S4096x128_d1_w32) (broadcastTo S4096x128 x1 broadcasts_S4096x1_S4096x128))
        (select (cmpi .slt (iota .tc S4096x128 32 [1] iota_S4096x128_d1_w32) (broadcast S4096x128 45#32)) e
          (broadcast S4096x128 (Scalar.ofBits .f32 0x00000000#32)))
        (broadcast S4096x128 (Scalar.ofBits .f32 0x00000000#32)) (ix2 r j)
      = if BitVec.ofNat 32 j.val = x1 (ix2 r (0 : Fin 1)) then (if j.val < 45 then e (ix2 r j) else 0) else 0 := by
  rw [select_apply, masked_apply]
  show Scalar.select _ _ (Ideal.ofBits .f32 0x00000000#32) = _
  rw [Ideal.ofBits_zero_f32]
  exact select_of_iff (isLabel_iff x1 r j) _ _

/-- The labelled lane zeroed, every other lane kept. -/
private theorem den_entry (e : FVec Ideal S4096x128 .f32) (x1 : IVec S4096x1 32) (r : Fin 4096) (j : Fin 128) :
    select (cmpi .eq (iota .tc S4096x128 32 [1] iota_S4096x128_d1_w32) (broadcastTo S4096x128 x1 broadcasts_S4096x1_S4096x128))
        (broadcast S4096x128 (Scalar.ofBits .f32 0x00000000#32))
        (select (cmpi .slt (iota .tc S4096x128 32 [1] iota_S4096x128_d1_w32) (broadcast S4096x128 45#32)) e
          (broadcast S4096x128 (Scalar.ofBits .f32 0x00000000#32))) (ix2 r j)
      = if BitVec.ofNat 32 j.val = x1 (ix2 r (0 : Fin 1)) then 0 else (if j.val < 45 then e (ix2 r j) else 0) := by
  rw [select_apply, masked_apply]
  show Scalar.select _ (Ideal.ofBits .f32 0x00000000#32) _ = _
  rw [Ideal.ofBits_zero_f32]
  exact select_of_iff (isLabel_iff x1 r j) _ _

/-- The scratch after a block: the old entry plus the block's rows' contributions. -/
theorem pay1_apply (e : FVec Ideal S4096x128 .f32) (x1 : IVec S4096x1 32) (v61 : FVec Ideal S1x1 .f32) (i : S1x1.Idx) :
    k0_pay1 (F := Ideal) e (iota .tc S4096x128 32 [1] iota_S4096x128_d1_w32) x1 v61 i
      = v61 (ix2 (0 : Fin 1) (0 : Fin 1)) + ∑ r : Fin 4096, -(Ideal.log (Ideal.div
          (∑ j : Fin 128, if BitVec.ofNat 32 j.val = x1 (ix2 r (0 : Fin 1)) then (if j.val < 45 then e (ix2 r j) else 0) else 0)
          (∑ j : Fin 128, if BitVec.ofNat 32 j.val = x1 (ix2 r (0 : Fin 1)) then 0 else (if j.val < 45 then e (ix2 r j) else 0)))) := by
  obtain rfl := idx11_eq i
  unfold k0_pay1
  simp only [shapeCast_self]
  rw [addf_apply]
  refine congrArg (v61 (ix2 (0 : Fin 1) (0 : Fin 1)) + ·) ?_
  refine (shapeCast_a_1a_apply _ shapeCasts_S1_S1x1 0 0).trans ?_
  refine (colSum_apply _ _ _ _ 0).trans ?_
  refine Finset.sum_congr rfl fun r _ => ?_
  simp only [subf_apply, broadcast_apply, log_apply, divf_apply]
  refine (congrArg (· - _) Ideal.ofBits_zero_f32).trans ?_
  rw [zero_sub, shapeCast_a_a1_apply, shapeCast_a_a1_apply, laneSum_apply, laneSum_apply]
  refine congrArg (fun t => -(Ideal.log t)) ?_
  exact congrArg₂ Ideal.div (Finset.sum_congr rfl fun k _ => pos_entry e x1 r k)
    (Finset.sum_congr rfl fun k _ => den_entry e x1 r k)

/-- The stored output block is the scratch's entry everywhere. -/
theorem pay2_apply (v69 : FVec Ideal S1x1 .f32) (i : S8x128.Idx) :
    k0_pay2 (F := Ideal) v69 i = v69 (ix2 (0 : Fin 1) (0 : Fin 1)) := by
  obtain ⟨p, q, rfl⟩ : ∃ (p : Fin 8) (q : Fin 128), i = ix2 p q := ⟨i 0, i 1, eq_ix2 i⟩
  unfold k0_pay2
  rw [shapeCast_self]
  exact broadcastTo_11_ab_apply v69 broadcasts_S1x1_S8x128 p q

/-- The reset value is 0. -/
theorem pay3_apply (i : S1x1.Idx) : k0_pay3 (F := Ideal) i = 0 := by
  unfold k0_pay3
  rw [shapeCast_self]
  exact Ideal.ofBits_zero_f32

end Cert.KernelIdeal.Pay

end
-- ==== Proof.NcaMath.lean ====
/-
  Facts about the extended reals that join the kernel's arrangement of the loss to the specification's.

  * `ee_real`: a similarity exp (−√(max d 0)) is a real number whatever d is: the square root of a non-negative
    extended real is never −∞, so its negative is never +∞, and exp of anything but +∞ is real.
  * `masked_pos`, `masked_den`: the kernel works on 128 lanes of which the first 45 are classes. Summing the lanes
    with everything but the labelled lane zeroed gives the labelled similarity; summing them with the labelled lane
    zeroed gives the sum of the others, which is the sum of all 45 minus the labelled one BECAUSE that one is real
    (x + y − y = x needs y finite).
  * `acc`, `regroup`: each of the two cores keeps a running sum over its 16 blocks of 4096 rows, started from 0;
    the two cores' totals add up to the sum over all 131072 rows (associativity and commutativity of + only).
-/
import proofs.«406120_j72567767433948_2_alg».proof.Proof.Spec
import Mathlib.Data.EReal.Operations
import Mathlib.Algebra.BigOperators.Fin

noncomputable section

namespace Cert.Nca

open Idealize.ShloMosaic

/-- A similarity is a real number, for any rows. -/
theorem ee_real (x p : Fin 512 → EReal) : ∃ r : ℝ, ee x p = (r : EReal) := by
  unfold ee
  -- only 0 ≤ max d 0 is used of the argument of the square root
  have h0 : (0 : EReal) ≤ max (d2 x p) 0 := le_max_right _ _
  generalize max (d2 x p) 0 = m at h0
  induction m using EReal.rec with
  | bot => exact absurd h0 (by simp)
  | coe r =>
    -- a non-negative real: the root is the real root, and exp of a real is real
    have hr : ¬ r < 0 := not_lt.mpr (by exact_mod_cast h0)
    refine ⟨Real.exp (-(Real.sqrt r)), ?_⟩
    rw [Ideal.sqrt_coe, if_neg hr, ← EReal.coe_neg, Ideal.exp_coe]
  | top =>
    -- √⊤ = ⊤, −⊤ = ⊥, exp ⊥ = 0
    refine ⟨0, ?_⟩
    rw [Ideal.sqrt_top, EReal.neg_top, Ideal.exp_bot, EReal.coe_zero]

/-- Among the 128 lanes exactly one carries the 32-bit word `w` as its number: lane `w.toNat`
    (lane numbers are below 2^32, so reading a lane number as a word loses nothing). -/
private theorem lane_iff (w : BitVec 32) (hw : w.toNat < 128) (j : Fin 128) :
    BitVec.ofNat 32 j.val = w ↔ j = ⟨w.toNat, hw⟩ := by
  constructor
  · intro h
    apply Fin.ext
    have h1 : (BitVec.ofNat 32 j.val).toNat = w.toNat := congrArg BitVec.toNat h
    rw [BitVec.toNat_ofNat] at h1
    have hj : j.val % 2 ^ 32 = j.val := Nat.mod_eq_of_lt (by have := j.isLt; omega)
    show j.val = w.toNat
    omega
  · intro h
    subst h
    apply BitVec.eq_of_toNat_eq
    rw [BitVec.toNat_ofNat]
    exact Nat.mod_eq_of_lt (by show w.toNat < 2 ^ 32; omega)

/-- The lanes with everything but lane `w` zeroed (and lanes from 45 on zeroed) sum to entry `w`. -/
theorem masked_pos (E : Fin 128 → EReal) (w : BitVec 32) (hw : w.toNat < 45) :
    (∑ j : Fin 128, if BitVec.ofNat 32 j.val = w then (if j.val < 45 then E j else 0) else 0)
      = pick (restrict E) w.toNat := by
  have hw' : w.toNat < 128 := by omega
  -- the mask is the indicator of the single lane w.toNat
  have hcongr : ∀ j : Fin 128,
      (if BitVec.ofNat 32 j.val = w then (if j.val < 45 then E j else 0) else 0)
        = if j = (⟨w.toNat, hw'⟩ : Fin 128) then (if j.val < 45 then E j else 0) else 0 := by
    intro j
    by_cases h : j = (⟨w.toNat, hw'⟩ : Fin 128)
    · rw [if_pos ((lane_iff w hw' j).mpr h), if_pos h]
    · rw [if_neg (fun hh => h ((lane_iff w hw' j).mp hh)), if_neg h]
  rw [Finset.sum_congr rfl (fun j _ => hcongr j), Finset.sum_ite_eq' Finset.univ (⟨w.toNat, hw'⟩ : Fin 128),
    if_pos (Finset.mem_univ _)]
  show (if w.toNat < 45 then E ⟨w.toNat, hw'⟩ else 0) = pick (restrict E) w.toNat
  rw [if_pos hw]
  unfold pick
  rw [dif_pos hw]
  rfl

/-- The 128 lanes with the lanes from 45 on zeroed sum to the sum of the first 45 entries. -/
private theorem sum_lanes (E : Fin 128 → EReal) :
    (∑ j : Fin 128, if j.val < 45 then E j else 0) = ∑ j : Fin 45, restrict E j := by
  -- 128 = 45 + 83: the first 45 lanes are the entries, the other 83 are zero
  have hsplit := Fin.sum_univ_add (a := 45) (b := 83)
    (fun j : Fin (45 + 83) => if j.val < 45 then E j else 0)
  refine hsplit.trans ?_
  have hzero : (∑ i : Fin 83, (fun j : Fin (45 + 83) => if j.val < 45 then E j else 0) (Fin.natAdd 45 i)) = 0 := by
    refine Finset.sum_eq_zero (fun i _ => ?_)
    have : ¬ (Fin.natAdd 45 i).val < 45 := by rw [Fin.coe_natAdd]; omega
    exact if_neg this
  rw [hzero, add_zero]
  refine Finset.sum_congr rfl (fun i _ => ?_)
  have : (Fin.castAdd 83 i).val < 45 := by rw [Fin.coe_castAdd]; exact i.isLt
  exact (if_pos this).trans rfl

/-- The lanes with lane `w` zeroed (and lanes from 45 on zeroed) sum to the 45 entries' sum minus entry `w`, when the
    entries are real. -/
theorem masked_den (E : Fin 128 → EReal) (w : BitVec 32) (hw : w.toNat < 45)
    (hr : ∀ j : Fin 45, ∃ r : ℝ, restrict E j = (r : EReal)) :
    (∑ j : Fin 128, if BitVec.ofNat 32 j.val = w then 0 else (if j.val < 45 then E j else 0))
      = (∑ j : Fin 45, restrict E j) - pick (restrict E) w.toNat := by
  have hw' : w.toNat < 128 := by omega
  obtain ⟨r, hr'⟩ := hr ⟨w.toNat, hw⟩
  -- the labelled entry is the real r
  have hpick : pick (restrict E) w.toNat = (r : EReal) := by
    unfold pick
    rw [dif_pos hw]
    exact hr'
  have hEa : E ⟨w.toNat, hw'⟩ = (r : EReal) := hr'
  -- every lane is its masked value plus its value on the labelled lane alone
  have hpt : ∀ j : Fin 128,
      (if j.val < 45 then E j else 0)
        = (if BitVec.ofNat 32 j.val = w then 0 else (if j.val < 45 then E j else 0))
          + (if j = (⟨w.toNat, hw'⟩ : Fin 128) then (if j.val < 45 then E j else 0) else 0) := by
    intro j
    by_cases h : j = (⟨w.toNat, hw'⟩ : Fin 128)
    · rw [if_pos ((lane_iff w hw' j).mpr h), if_pos h, zero_add]
    · rw [if_neg (fun hh => h ((lane_iff w hw' j).mp hh)), if_neg h, add_zero]
  -- summed over the lanes: all 45 entries = the masked sum + r
  have htot : (∑ j : Fin 45, restrict E j)
      = (∑ j : Fin 128, if BitVec.ofNat 32 j.val = w then 0 else (if j.val < 45 then E j else 0)) + (r : EReal) := by
    rw [← sum_lanes E, Finset.sum_congr rfl (fun j _ => hpt j), Finset.sum_add_distrib,
      Finset.sum_ite_eq' Finset.univ (⟨w.toNat, hw'⟩ : Fin 128), if_pos (Finset.mem_univ _)]
    rw [show (if (⟨w.toNat, hw'⟩ : Fin 128).val < 45 then E ⟨w.toNat, hw'⟩ else 0) = (r : EReal) from
      (if_pos hw).trans hEa]
  -- x + r − r = x for a real r
  rw [hpick, htot, EReal.add_sub_cancel_right]

/-- A core's running sum after block `n` of its run: started from 0 at its first block. -/
def acc (L : ℕ → EReal) : ℕ → EReal
  | 0 => 0 + L 0
  | n + 1 => acc L n + L (n + 1)

/-- The running sum after block `n` is the sum of the blocks 0 … n. -/
private theorem acc_eq (L : ℕ → EReal) (n : ℕ) : acc L n = ∑ i ∈ Finset.range (n + 1), L i := by
  induction n with
  | zero => rw [acc, zero_add, Finset.sum_range_one]
  | succ n ih => rw [acc, ih, Finset.sum_range_succ _ (n + 1)]

/-- A sum over `m * n` consecutive numbers, read as `n` consecutive blocks of `m`. -/
private theorem sum_blocks (R : ℕ → EReal) (m n : ℕ) :
    (∑ i ∈ Finset.range n, ∑ r ∈ Finset.range m, R (m * i + r)) = ∑ b ∈ Finset.range (m * n), R b := by
  induction n with
  | zero => rw [Finset.sum_range_zero, Nat.mul_zero, Finset.sum_range_zero]
  | succ n ih => rw [Finset.sum_range_succ, ih, Nat.mul_succ, Finset.sum_range_add]

/-- The two cores' totals (16 blocks of 4096 rows each) add up to the sum over all rows. -/
theorem regroup (R : ℕ → EReal) :
    acc (fun i => ∑ r : Fin 4096, R (4096 * i + r.val)) 15
      + acc (fun i => ∑ r : Fin 4096, R (4096 * (16 + i) + r.val)) 15
      = ∑ b : Fin 131072, R b.val := by
  -- a block's sum over its 4096 rows, with the rows numbered by naturals
  have hblk : ∀ i : ℕ, (∑ r : Fin 4096, R (4096 * i + r.val)) = ∑ r ∈ Finset.range 4096, R (4096 * i + r) :=
    fun i => Fin.sum_univ_eq_sum_range (fun r => R (4096 * i + r)) 4096
  -- all rows = 32 blocks = the first 16 blocks + the last 16 blocks
  have hall : (∑ b : Fin 131072, R b.val)
      = (∑ i ∈ Finset.range 16, ∑ r ∈ Finset.range 4096, R (4096 * i + r))
        + ∑ i ∈ Finset.range 16, ∑ r ∈ Finset.range 4096, R (4096 * (16 + i) + r) := by
    have h1 : (∑ b : Fin 131072, R b.val) = ∑ b ∈ Finset.range (4096 * (16 + 16)), R b :=
      Fin.sum_univ_eq_sum_range R 131072
    refine h1.trans ?_
    refine (sum_blocks R 4096 (16 + 16)).symm.trans ?_
    exact Finset.sum_range_add (fun i => ∑ r ∈ Finset.range 4096, R (4096 * i + r)) 16 16
  rw [acc_eq, acc_eq, hall]
  refine congrArg₂ (· + ·) ?_ ?_
  · exact Finset.sum_congr rfl (fun i _ => hblk i)
  · exact Finset.sum_congr rfl (fun i _ => hblk (16 + i))

end Cert.Nca

end
-- ==== Proof.Fold.lean ====
/-
  The one-entry scratch after each grid point is the core's running sum of block losses.

  Point n belongs to core n / 16 and is step n % 16 of that core's run. A block's loss BL t is the sum over the block's
  4096 rows of −log (pos / den) as the body computes it from the point's input blocks. The scratch after point n is
      acc (fun i => BL (16·(n / 16) + i)) (n % 16):
  0 + BL at a core's first point (the reset), the point before's value + BL at the others — by induction on the point.
  At a core's last point the output block holds that value in every entry.
-/
import proofs.«406120_j72567767433948_2_alg».proof.Proof.Pieces
import proofs.«406120_j72567767433948_2_alg».proof.Proof.Blocks
import proofs.«406120_j72567767433948_2_alg».proof.Proof.Payloads
import proofs.«406120_j72567767433948_2_alg».proof.Proof.NcaMath

set_option maxRecDepth 16384

noncomputable section

namespace Cert.KernelIdeal.Fold

open Cert.KernelIdeal Cert.KernelIdeal.Gen Cert.KernelIdeal.Blocks
open Idealize.ShloMosaic Idealize.ShloMosaic.TcCoe Idealize.ShloMosaic.ValueIdx Idealize.SL.Sem

variable (m : (ℓ : Loc nD τ sig) → Buf (Elt Ideal) ℓ)

/-- The similarities the body computes at a point: rows of the block by 128 lanes. -/
abbrev sims (c : Dev nD) (t : Fin cfg0.N) : FVec Ideal S4096x128 .f32 :=
  k0_pay4 (F := Ideal) (xBlk m c t) (pTBlk m c t) (p2Blk m c t) (spBlk m c t)

/-- A block's loss as the body computes it: over its rows, minus the log of the labelled lane's similarity over the
    sum of the other class lanes'. -/
def BL (c : Dev nD) (t : Fin cfg0.N) : EReal :=
  ∑ r : Fin 4096, -(Ideal.log (Ideal.div
    (∑ j : Fin 128, if BitVec.ofNat 32 j.val = lBlk m c t (ix2 r (0 : Fin 1)) then (if j.val < 45 then sims m c t (ix2 r j) else 0) else 0)
    (∑ j : Fin 128, if BitVec.ofNat 32 j.val = lBlk m c t (ix2 r (0 : Fin 1)) then 0 else (if j.val < 45 then sims m c t (ix2 r j) else 0))))

/-- The same by the point's number (0 past the grid). -/
def BLn (c : Dev nD) (n : ℕ) : EReal := if h : n < cfg0.N then BL m c ⟨n, h⟩ else 0

/-- The scratch's new entry: the old entry plus the block's loss. -/
theorem step (c : Dev nD) (t : Fin cfg0.N) (xs0 : FVec Ideal S1x1 .f32) :
    k0_pay1 (F := Ideal) (sims m c t) Pieces.lanes (lBlk m c t) xs0 (ix2 (0 : Fin 1) (0 : Fin 1))
      = xs0 (ix2 (0 : Fin 1) (0 : Fin 1)) + BL m c t :=
  Pay.pay1_apply (sims m c t) (lBlk m c t) xs0 (ix2 (0 : Fin 1) (0 : Fin 1))

/-- After the reset: 0 plus the block's loss. -/
theorem step0 (c : Dev nD) (t : Fin cfg0.N) :
    k0_pay1 (F := Ideal) (sims m c t) Pieces.lanes (lBlk m c t) (k0_pay3 (F := Ideal)) (ix2 (0 : Fin 1) (0 : Fin 1))
      = 0 + BL m c t := by
  rw [step, Pay.pay3_apply]

/-- THE RUNNING SUM: the scratch's entry after point n. -/
theorem scratch_eq (c : Dev nD) : ∀ (n : ℕ) (h : n < cfg0.N),
    ((outsAt0 m c n h).2 : FVec Ideal S1x1 .f32) (ix2 (0 : Fin 1) (0 : Fin 1))
      = Cert.Nca.acc (fun i => BLn m c (n / 16 * 16 + i)) (n % 16)
  | 0, h => by
    have e : outsAt0 m c 0 h = _ := outsAt0_A m c ⟨0, h⟩ rfl (show ¬(0 % 16 = 15) by decide)
    rw [e]
    dsimp only
    rw [Pieces.sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩)]
    refine (step0 m c ⟨0, h⟩).trans ?_
    show _ = 0 + BLn m c (0 / 16 * 16 + 0)
    simp only [BLn, h, dif_pos]
  | n + 1, h => by
    have hN : cfg0.N = 32 := N_0
    by_cases h0 : (n + 1) % 16 = 0
    · have h1 : ¬(n + 1) % 16 = 15 := by omega
      have e : outsAt0 m c (n + 1) h = _ := outsAt0_A m c ⟨n + 1, h⟩ h0 h1
      rw [e]
      dsimp only
      rw [Pieces.sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)]
      refine (step0 m c ⟨n + 1, h⟩).trans ?_
      have e1 : (n + 1) / 16 * 16 = n + 1 := by omega
      rw [h0, e1]
      show _ = 0 + BLn m c (n + 1 + 0)
      simp only [BLn, Nat.add_zero, h, dif_pos]
    · have ih := scratch_eq c n (Nat.lt_of_succ_lt h)
      have e1 : (n + 1) / 16 = n / 16 := by omega
      have e2 : (n + 1) % 16 = n % 16 + 1 := by omega
      have e3 : n / 16 * 16 + (n % 16 + 1) = n + 1 := by omega
      have hval : ((outsAt0 m c (n + 1) h).2 : FVec Ideal S1x1 .f32) (ix2 (0 : Fin 1) (0 : Fin 1))
          = ((outsAt0 m c n (Nat.lt_of_succ_lt h)).2 : FVec Ideal S1x1 .f32) (ix2 (0 : Fin 1) (0 : Fin 1)) + BL m c ⟨n + 1, h⟩ := by
        by_cases h1 : (n + 1) % 16 = 15
        · have e : outsAt0 m c (n + 1) h = _ := outsAt0_C m c ⟨n + 1, h⟩ h0 h1
          rw [e]
          dsimp only
          rw [Pieces.sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _]
          exact step m c ⟨n + 1, h⟩ _
        · have e : outsAt0 m c (n + 1) h = _ := outsAt0_B m c ⟨n + 1, h⟩ h0 h1
          rw [e]
          dsimp only
          rw [Pieces.sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _]
          exact step m c ⟨n + 1, h⟩ _
      rw [hval, ih, e1, e2]
      show _ = Cert.Nca.acc (fun i => BLn m c (n / 16 * 16 + i)) (n % 16) + BLn m c (n / 16 * 16 + (n % 16 + 1))
      rw [e3]
      simp only [BLn, h, dif_pos]

/-- At a core's last point the output block holds the core's total in every entry. -/
theorem out_eq (c : Dev nD) (t : Fin cfg0.N) (h15 : t.val % 16 = 15) (y : S8x128.Idx) :
    ((outsAt0 m c t.val t.isLt).1 : FVec Ideal S8x128 .f32) y
      = Cert.Nca.acc (fun i => BLn m c (t.val / 16 * 16 + i)) 15 := by
  have h0 : ¬t.val % 16 = 0 := by omega
  have e := outsAt0_C m c t h0 h15
  rw [e]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _, Pay.pay2_apply]
  have hs := scratch_eq m c t.val t.isLt
  rw [e] at hs
  dsimp only at hs
  rw [Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _] at hs
  rw [hs, h15]

end Cert.KernelIdeal.Fold

end
-- ==== Proof.LibScatterSet.lean ====
/-
  A SET-SCATTER READ AT AN INDEX (general: no program's shapes or records in it).

  `Host.scatter d f x idx upd` is the left fold, over the update indices in row-major order, of the step that replaces
  the element an update lands on (`ScatterDims.resultIdx?`: start index read signed plus the window coordinate, dropped
  when outside the operand) by the body `f` of that element and the update's. Two readings at an index follow from the
  fold alone:
  • where NO update lands the result is the operand's element, whatever the body (`scatter_apply_of_miss`);
  • for a body that returns the update (`fun _ b => b`: a SET), where update index `j` lands and no
    other does, the result is the update's element at `j` (`scatter_set_apply_of_hit`). The hypothesis is injectivity of
    the landing map at that one element; it holds at every element when one start index places a whole window
    (a block written into an array at one offset; a padding written as a set into zeros).
  The proof walks the list: steps that land elsewhere do not change the element (`foldl_scatterStep_miss`), and the last
  step that lands on it overwrites what was there (`foldl_scatterStep_hit`).
-/
import Idealize.ShloMosaic.PureOps.ShapeOps

namespace Cert.Lib.ScatterSet

open Idealize.ShloMosaic

variable {α : Type} {s si u : Shape} {w : ℕ}

/-- One step of the scatter's fold: update number `n` (in row-major order) rewrites the element it lands on. -/
def scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of that step over the update numbers in order. -/
theorem scatter_eq_foldl (d : ScatterDims s si u) (f : α → α → α) (x : s.Idx → α) (idx : IVec si w) (upd : u.Idx → α) :
    Host.scatter d f x idx upd = (List.finRange u.numel).foldl (scatterStep d f idx upd) x := rfl

/-- Updates none of which lands on `i'` leave the element at `i'` as it was. -/
theorem foldl_scatterStep_miss (d : ScatterDims s si u) (f : α → α → α) (idx : IVec si w) (upd : u.Idx → α)
    (i' : s.Idx) :
    ∀ (L : List (Fin u.numel)) (r : s.Idx → α), (∀ n ∈ L, d.resultIdx? (u.rowMajor.symm n) idx ≠ some i') →
      L.foldl (scatterStep d f idx upd) r i' = r i'
  | [], r, _ => rfl
  | n :: L, r, h => by
      rw [List.foldl_cons, foldl_scatterStep_miss d f idx upd i' L _ (fun n' hn' => h n' (List.mem_cons_of_mem _ hn'))]
      have hn := h n List.mem_cons_self
      unfold scatterStep
      generalize d.resultIdx? (u.rowMajor.symm n) idx = o at hn
      cases o with
      | none => rfl
      | some i => exact if_neg (fun e => hn (by rw [e]))

/-- When every update of the list that lands on `i'` is update `n₀`, and `n₀` is in the list, a set-scatter leaves
    update `n₀`'s element at `i'`: the steps before `n₀`'s last occurrence are overwritten by it, the steps after it
    land elsewhere. -/
theorem foldl_scatterStep_hit (d : ScatterDims s si u) (idx : IVec si w) (upd : u.Idx → α) (i' : s.Idx)
    (n₀ : Fin u.numel) (h₀ : d.resultIdx? (u.rowMajor.symm n₀) idx = some i') :
    ∀ (L : List (Fin u.numel)) (r : s.Idx → α), n₀ ∈ L →
      (∀ n ∈ L, d.resultIdx? (u.rowMajor.symm n) idx = some i' → n = n₀) →
      L.foldl (scatterStep d (fun _ b => b) idx upd) r i' = upd (u.rowMajor.symm n₀)
  | [], r, hm, _ => absurd hm List.not_mem_nil
  | n :: L, r, hm, hu => by
      rw [List.foldl_cons]
      by_cases hL : n₀ ∈ L
      · exact foldl_scatterStep_hit d idx upd i' n₀ h₀ L _ hL (fun n' hn' => hu n' (List.mem_cons_of_mem _ hn'))
      · have hn : n = n₀ := by
          rcases List.mem_cons.1 hm with h | h
          · exact h.symm
          · exact absurd h hL
        subst hn
        rw [foldl_scatterStep_miss d _ idx upd i' L _
          (fun n' hn' e => hL (by rw [← hu n' (List.mem_cons_of_mem _ hn') e]; exact hn'))]
        unfold scatterStep
        rw [h₀]
        exact if_pos rfl

/-- A SET-SCATTER READ WHERE AN UPDATE LANDS: if update index `j` lands on `i'` and is the only one that does, the
    result at `i'` is the update's element at `j`. -/
theorem scatter_set_apply_of_hit (d : ScatterDims s si u) (x : s.Idx → α) (idx : IVec si w) (upd : u.Idx → α)
    (i' : s.Idx) (j : u.Idx) (hj : d.resultIdx? j idx = some i')
    (hinj : ∀ j', d.resultIdx? j' idx = some i' → j' = j) :
    Host.scatter d (fun _ b => b) x idx upd i' = upd j := by
  have h := foldl_scatterStep_hit d idx upd i' (u.rowMajor j) (by rw [Equiv.symm_apply_apply]; exact hj)
    (List.finRange u.numel) x (List.mem_finRange _)
    (fun n _ hn => by rw [← hinj _ hn, Equiv.apply_symm_apply])
  rw [Equiv.symm_apply_apply] at h
  exact h

/-- A SCATTER READ WHERE NO UPDATE LANDS: the operand's element, whatever the body. -/
theorem scatter_apply_of_miss (d : ScatterDims s si u) (f : α → α → α) (x : s.Idx → α) (idx : IVec si w) (upd : u.Idx → α)
    (i' : s.Idx) (h : ∀ j, d.resultIdx? j idx ≠ some i') :
    Host.scatter d f x idx upd i' = x i' :=
  foldl_scatterStep_miss d f idx upd i' (List.finRange u.numel) x (fun n _ => h _)

end Cert.Lib.ScatterSet
-- ==== Proof.HostPre.lean ====
/-
  What the four arrays the host computes before the launch hold, read at an index over the extended reals.

  The host pads the [45,512] proxy table to [128,512] (rows from 45 on are 0: a set-scatter of the table at row 0
  into zeros) and hands the region: the padded table's row sums of squares and row sums as [1,128] vectors, its
  transpose as a [512,128] matrix, and the labels as a [131072,1] column. Only rows below 45 of the padded table are
  used by the claim, and there the padded table IS the proxy table.

  The argument: each of the four arrays is first written as ONE term of the launch's arguments (the operations before
  the region composed); the set-scatter is read at an index by a general fact about its fold (an element on which exactly
  one update lands holds that update: the set-scatter module beside this one); with the start index the zero word, update (j, k) lands on (j, k) and nowhere else;
  the transpose, the two reshapes and the two row sums are then read at an index by the library's lemmas.
-/
import proofs.«406120_j72567767433948_2_alg».proof.Proof.Gen.KernelIdeal.Frame
import proofs.«406120_j72567767433948_2_alg».proof.Proof.LibScatterSet
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.HostPre

open Cert.KernelIdeal Cert.KernelIdeal.Gen Idealize.ShloMosaic Idealize.ShloMosaic.TcCoe Idealize.ShloMosaic.ValueIdx Idealize.SL.Sem

/-! ## This program's scatter: one start index along axis 0, the window the whole update -/

/-- The scatter's dimension numbers. -/
private abbrev dPad : ScatterDims S128x512 S1 S45x512 := scatter_S128x512_S1_S45x512_01_n_0_0

/-- With the start index a word that reads 0, update (j, k) lands on (j, k). -/
private theorem resultIdx_pad (idx : IVec S1 32) (hidx : ∀ i, (idx i).toInt = 0) (j : Fin 45) (k : Fin 512) :
    dPad.resultIdx? (ix2 j k) idx = some (ix2 (⟨j.val, Nat.lt_trans j.isLt (by decide)⟩ : Fin 128) k) := by
  have hs : ∀ a, dPad.start (ix2 j k) idx a = 0 := by
    intro a
    unfold ScatterDims.start
    split
    · exact hidx _
    · rfl
  have hw0 : dPad.window (ix2 j k) (0 : Fin 2) = j.val := rfl
  have hw1 : dPad.window (ix2 j k) (1 : Fin 2) = k.val := rfl
  have hcond : ∀ a, 0 ≤ dPad.start (ix2 j k) idx a + dPad.window (ix2 j k) a
      ∧ dPad.start (ix2 j k) idx a + dPad.window (ix2 j k) a < S128x512.size a := by
    intro a
    rw [hs a]
    match a with
    | ⟨0, _⟩ =>
      show (0 : ℤ) ≤ 0 + ((dPad.window (ix2 j k) (0 : Fin 2) : ℕ) : ℤ) ∧ (0 : ℤ) + ((dPad.window (ix2 j k) (0 : Fin 2) : ℕ) : ℤ) < ((128 : ℕ) : ℤ)
      rw [hw0]; have := j.isLt; omega
    | ⟨1, _⟩ =>
      show (0 : ℤ) ≤ 0 + ((dPad.window (ix2 j k) (1 : Fin 2) : ℕ) : ℤ) ∧ (0 : ℤ) + ((dPad.window (ix2 j k) (1 : Fin 2) : ℕ) : ℤ) < ((512 : ℕ) : ℤ)
      rw [hw1]; have := k.isLt; omega
  unfold ScatterDims.resultIdx?
  rw [dif_pos hcond]
  refine congrArg some (funext fun a => Fin.ext ?_)
  show (dPad.start (ix2 j k) idx a + dPad.window (ix2 j k) a).toNat = _
  rw [hs a]
  match a with
  | ⟨0, _⟩ =>
    show ((0 : ℤ) + ((dPad.window (ix2 j k) (0 : Fin 2) : ℕ) : ℤ)).toNat = j.val
    rw [hw0]; omega
  | ⟨1, _⟩ =>
    show ((0 : ℤ) + ((dPad.window (ix2 j k) (1 : Fin 2) : ℕ) : ℤ)).toNat = k.val
    rw [hw1]; omega

variable (m : (ℓ : Loc nD τ sig) → Buf (Elt Ideal) ℓ)

/-- The proxy table and the label vector as the launch finds them, and the four arrays the host hands the region, each
    at its literal type. -/
abbrev proxyArr (c : Dev nD) : FVec Ideal S45x512 .f32 := m ((c : Thread nD τ).loc main_arg2)
abbrev labArr (c : Dev nD) : IVec S131072 32 := m ((c : Thread nD τ).loc main_arg1)
abbrev p2Arr (c : Dev nD) : FVec Ideal S1x128 .f32 := V m c main_v5
abbrev spArr (c : Dev nD) : FVec Ideal S1x128 .f32 := V m c main_v7
abbrev pTArr (c : Dev nD) : FVec Ideal S512x128 .f32 := V m c main_v8
abbrev labCol (c : Dev nD) : IVec S131072x1 32 := V m c main_v9

/-! ## The four arrays as terms of the arguments -/

/-- The padded table: the proxy table written at row 0 of a [128,512] array of zeros. -/
private def padded (c : Dev nD) : FVec Ideal S128x512 .f32 :=
  Host.scatter scatter_S128x512_S1_S45x512_01_n_0_0 (fun _ b => b)
    (broadcastInDim S128x512 ![] bcast_S_S128x512 (constant (F := Ideal) S_ .f32 0x00000000#32))
    (broadcastInDim S1 ![] bcast_S_S1 (constantI S_ 32 0#32))
    (proxyArr m c)

private theorem labCol_eq (c : Dev nD) :
    labCol m c = shapeCast S131072x1 (labArr m c) shapeCasts_S131072_S131072x1 := by
  show StableHlo.after hostOps0 (fun b => m (c, b)) (Proc.devRef .tc main_v9) = _
  after_results
  rfl

private theorem pT_eq (c : Dev nD) :
    pTArr m c = transpose S512x128 [1, 0] (padded m c) transposes_S128x512_S512x128_1_0 := by
  show StableHlo.after hostOps0 (fun b => m (c, b)) (Proc.devRef .tc main_v8) = _
  after_results
  rfl

private theorem p2_eq (c : Dev nD) :
    p2Arr m c = shapeCast S1x128
      (Host.reduceAdd (mulf (padded m c) (padded m c)) (constant (F := Ideal) S_ .f32 0x00000000#32)
        reducesTo_S128x512_S128_d1 h_S_) shapeCasts_S128_S1x128 := by
  show StableHlo.after hostOps0 (fun b => m (c, b)) (Proc.devRef .tc main_v5) = _
  after_results
  rfl

private theorem sp_eq (c : Dev nD) :
    spArr m c = shapeCast S1x128
      (Host.reduceAdd (padded m c) (constant (F := Ideal) S_ .f32 0x00000000#32)
        reducesTo_S128x512_S128_d1 h_S_) shapeCasts_S128_S1x128 := by
  show StableHlo.after hostOps0 (fun b => m (c, b)) (Proc.devRef .tc main_v7) = _
  after_results
  rfl

/-- The scatter's start index reads 0. -/
private theorem idx0_toInt (i : S1.Idx) :
    ((broadcastInDim S1 ![] bcast_S_S1 (constantI S_ 32 0#32) : IVec S1 32) i).toInt = 0 := rfl

/-- Below row 45 the padded table is the proxy table. -/
private theorem padded_apply (c : Dev nD) (j : Fin 128) (hj : j.val < 45) (k : Fin 512) :
    padded m c (ix2 j k) = proxyArr m c (ix2 (⟨j.val, hj⟩ : Fin 45) k) := by
  unfold padded
  refine Cert.Lib.ScatterSet.scatter_set_apply_of_hit dPad _ _ _ (ix2 j k) (ix2 (⟨j.val, hj⟩ : Fin 45) k)
    (resultIdx_pad _ idx0_toInt ⟨j.val, hj⟩ k) (fun j' h' => ?_)
  obtain ⟨a, b, rfl⟩ : ∃ (a : Fin 45) (b : Fin 512), j' = ix2 a b := ⟨j' 0, j' 1, eq_ix2 j'⟩
  rw [resultIdx_pad _ idx0_toInt a b] at h'
  have e := Option.some.inj h'
  have e0 : a.val = j.val := congrArg (fun i : S128x512.Idx => (i 0).val) e
  have e1 : b.val = k.val := congrArg (fun i : S128x512.Idx => (i 1).val) e
  obtain rfl : a = ⟨j.val, hj⟩ := Fin.ext e0
  obtain rfl : b = k := Fin.ext e1
  rfl

/-- The row sums of a [128,512] array from a zero initial value, read at row j. -/
private theorem rowSum_apply (x : FVec Ideal S128x512 .f32) (j : Fin 128) :
    Host.reduceAdd x (constant (F := Ideal) S_ .f32 0x00000000#32) reducesTo_S128x512_S128_d1 h_S_ (ix1 j)
      = ∑ k : Fin 512, x (ix2 j k) := by
  have hR : S128x512.Reduces [1] S128 := by decide
  refine (hostReduceAdd_apply x _ reducesTo_S128x512_S128_d1 h_S_ (ix1 j)).trans ?_
  refine (Ideal.hostReduceAdd_single reducesTo_S128x512_S128_d1 hR x _ (ix1 j)).trans ?_
  rw [constant_apply, Ideal.ofBits_zero_f32, zero_add]
  refine Finset.sum_congr rfl fun k _ => congrArg x (funext fun a => Fin.ext ?_)
  match a with
  | ⟨0, _⟩ => rfl
  | ⟨1, _⟩ => rfl

/-! ## The four arrays read at an index -/

/-- The label column at row `b` is label `b`. -/
theorem lab_apply (c : Dev nD) (b : Fin 131072) :
    labCol m c (ix2 b (0 : Fin 1)) = labArr m c (ix1 b) := by
  refine (congrFun (labCol_eq m c) _).trans ?_
  refine shapeCast_apply _ _ _ _ ?_
  rw [Shape.rowMajor_val_two, Shape.rowMajor_val_one]
  show b.val = b.val * 1 + 0
  omega

/-- The transposed padded table at (k, j), j a class: proxy j's coordinate k. -/
theorem pT_apply (c : Dev nD) (k : Fin 512) (j : Fin 128) (hj : j.val < 45) :
    pTArr m c (ix2 k j) = proxyArr m c (ix2 (⟨j.val, hj⟩ : Fin 45) k) := by
  refine (congrFun (pT_eq m c) _).trans ?_
  refine (transpose_ix2_apply (padded m c) transposes_S128x512_S512x128_1_0 k j).trans ?_
  exact padded_apply m c j hj k

/-- The squared-norm vector at a class j: the sum of proxy j's squares. -/
theorem p2_apply (c : Dev nD) (j : Fin 128) (hj : j.val < 45) :
    p2Arr m c (ix2 (0 : Fin 1) j)
      = ∑ k : Fin 512, proxyArr m c (ix2 (⟨j.val, hj⟩ : Fin 45) k) * proxyArr m c (ix2 (⟨j.val, hj⟩ : Fin 45) k) := by
  refine (congrFun (p2_eq m c) _).trans ?_
  refine (shapeCast_a_1a_apply _ shapeCasts_S128_S1x128 (0 : Fin 1) j).trans ?_
  refine (rowSum_apply _ j).trans ?_
  refine Finset.sum_congr rfl fun k _ => ?_
  rw [mulf_apply, padded_apply m c j hj k]

/-- The row-sum vector at a class j: the sum of proxy j's coordinates. -/
theorem sp_apply (c : Dev nD) (j : Fin 128) (hj : j.val < 45) :
    spArr m c (ix2 (0 : Fin 1) j) = ∑ k : Fin 512, proxyArr m c (ix2 (⟨j.val, hj⟩ : Fin 45) k) := by
  refine (congrFun (sp_eq m c) _).trans ?_
  refine (shapeCast_a_1a_apply _ shapeCasts_S128_S1x128 (0 : Fin 1) j).trans ?_
  refine (rowSum_apply _ j).trans ?_
  exact Finset.sum_congr rfl fun k _ => padded_apply m c j hj k

end Cert.KernelIdeal.HostPre

end
-- ==== Proof.RowValue.lean ====
/-
  A block's loss is the specification's: with every label a class, the body's per-row term is the specification's
  row loss of the batch row it sits on.

  For a class lane j < 45 the similarity the body computes from the point's blocks is ee (feature row) (proxy j): the
  two [1,128] vectors hold the proxies' sums of squares and sums there, and column j of the transposed table is proxy
  j. The labelled lane is the label's own number, so the lanes' sum with the others zeroed picks the labelled
  similarity, and the sum with the labelled lane zeroed is the 45 similarities' sum minus it (a similarity is real).
  Both cores' running sums then add up to the sum over all rows.
-/
import proofs.«406120_j72567767433948_2_alg».proof.Proof.Fold
import proofs.«406120_j72567767433948_2_alg».proof.Proof.HostPre

set_option maxRecDepth 16384

noncomputable section

namespace Cert.KernelIdeal.RowValue

open Cert.KernelIdeal Cert.KernelIdeal.Gen Cert.KernelIdeal.Blocks Cert.KernelIdeal.Fold
open Idealize.ShloMosaic Idealize.ShloMosaic.TcCoe Idealize.ShloMosaic.ValueIdx Idealize.SL.Sem

variable (m : (ℓ : Loc nD τ sig) → Buf (Elt Ideal) ℓ)

/-- The batch's rows, the proxies and the labels as the specification takes them. -/
abbrev X (c : Dev nD) : Fin 131072 → Fin 512 → EReal := fun b k => xArr m c (ix2 b k)
abbrev P (c : Dev nD) : Fin 45 → Fin 512 → EReal := fun j k => HostPre.proxyArr m c (ix2 j k)
abbrev lab (c : Dev nD) : Fin 131072 → ℕ := fun b => (HostPre.labArr m c (ix1 b)).toNat

/-- On a class lane the body's similarity is the specification's. -/
theorem sims_class (c : Dev nD) (t : Fin cfg0.N) (r : Fin 4096) (j : Fin 128) (hj : j.val < 45) :
    sims m c t (ix2 r j) = Cert.Nca.ee (X m c (grow t r)) (P m c ⟨j.val, hj⟩) := by
  have e2 : p2Blk m c t (ix2 (0 : Fin 1) j) = ∑ k : Fin 512, P m c ⟨j.val, hj⟩ k * P m c ⟨j.val, hj⟩ k :=
    (p2Blk_apply m c t j).trans (HostPre.p2_apply m c j hj)
  have e3 : spBlk m c t (ix2 (0 : Fin 1) j) = ∑ k : Fin 512, P m c ⟨j.val, hj⟩ k :=
    (spBlk_apply m c t j).trans (HostPre.sp_apply m c j hj)
  have e4 : ∀ k : Fin 512, pTBlk m c t (ix2 k j) = P m c ⟨j.val, hj⟩ k := fun k =>
    (pTBlk_apply m c t k j).trans (HostPre.pT_apply m c k j hj)
  have e0 : ∀ k : Fin 512, xBlk m c t (ix2 r k) = X m c (grow t r) k := fun k => xBlk_apply m c t r k
  refine (Pay.pay4_apply (xBlk m c t) (pTBlk m c t) (p2Blk m c t) (spBlk m c t) r j).trans ?_
  simp only [e0, e2, e3, e4]
  rfl

/-- The specification's loss of row b (0 past the batch). -/
def R (c : Dev nD) (b : ℕ) : EReal :=
  if h : b < 131072 then Cert.Nca.rowLoss (fun j => Cert.Nca.ee (X m c ⟨b, h⟩) (P m c j)) (lab m c ⟨b, h⟩) else 0

/-- A block's loss is the sum of its rows' specification losses, when every label is a class. -/
theorem BL_eq (c : Dev nD) (hl : ∀ b, lab m c b < 45) (t : Fin cfg0.N) :
    BL m c t = ∑ r : Fin 4096, Cert.Nca.rowLoss (fun j => Cert.Nca.ee (X m c (grow t r)) (P m c j)) (lab m c (grow t r)) := by
  unfold BL
  refine Finset.sum_congr rfl fun r _ => ?_
  have hw : lBlk m c t (ix2 r (0 : Fin 1)) = HostPre.labArr m c (ix1 (grow t r)) :=
    (lBlk_apply m c t r).trans (HostPre.lab_apply m c (grow t r))
  have hlt : (HostPre.labArr m c (ix1 (grow t r))).toNat < 45 := hl (grow t r)
  have hres : Cert.Nca.restrict (fun j : Fin 128 => sims m c t (ix2 r j))
      = fun j : Fin 45 => Cert.Nca.ee (X m c (grow t r)) (P m c j) :=
    funext fun j => sims_class m c t r ⟨j.val, Nat.lt_of_lt_of_le j.isLt (by decide)⟩ j.isLt
  rw [hw, Cert.Nca.masked_pos (fun j : Fin 128 => sims m c t (ix2 r j)) _ hlt,
    Cert.Nca.masked_den (fun j : Fin 128 => sims m c t (ix2 r j)) _ hlt (fun j => by rw [hres]; exact Cert.Nca.ee_real _ _), hres]
  rfl

/-- The same by the point's number. -/
theorem BLn_eq (c : Dev nD) (hl : ∀ b, lab m c b < 45) (n : ℕ) :
    BLn m c n = ∑ r : Fin 4096, R m c (4096 * n + r.val) := by
  have hN : cfg0.N = 32 := N_0
  unfold BLn
  by_cases h : n < cfg0.N
  · rw [dif_pos h, BL_eq m c hl ⟨n, h⟩]
    refine Finset.sum_congr rfl fun r _ => ?_
    have hb : 4096 * n + r.val < 131072 := by have := r.isLt; omega
    unfold R
    rw [dif_pos hb]
  · rw [dif_neg h]
    refine (Finset.sum_eq_zero fun r _ => ?_).symm
    have hb : ¬4096 * n + r.val < 131072 := by omega
    unfold R
    rw [dif_neg hb]

/-- THE TOTAL: the two cores' running sums add up to the specification's loss. -/
theorem cores_total (c : Dev nD) (hl : ∀ b, lab m c b < 45) :
    Cert.Nca.acc (fun i => BLn m c (0 + i)) 15 + Cert.Nca.acc (fun i => BLn m c (16 + i)) 15
      = Cert.Nca.total (X m c) (P m c) (lab m c) := by
  have e0 : (fun i => BLn m c (0 + i)) = fun i => ∑ r : Fin 4096, R m c (4096 * i + r.val) :=
    funext fun i => by rw [Nat.zero_add]; exact BLn_eq m c hl i
  have e1 : (fun i => BLn m c (16 + i)) = fun i => ∑ r : Fin 4096, R m c (4096 * (16 + i) + r.val) :=
    funext fun i => BLn_eq m c hl (16 + i)
  rw [e0, e1, Cert.Nca.regroup (R m c)]
  unfold Cert.Nca.total
  refine Finset.sum_congr rfl fun b _ => ?_
  unfold R
  rw [dif_pos b.isLt]

end Cert.KernelIdeal.RowValue

end
-- ==== Proof.Final.lean ====
/-
  The kernel's result: the [16,128] output array after the run, and the scalar the host computes from it.

  The output has one [8,128] block per core, written back once, after the core's last point (points 15 and 31), where
  the body filled it with the core's total. So after the run entry (row, lane) holds the total of core row / 8. The host
  then adds entries (0, 0) and (8, 0): the two cores' totals, which with every label a class is the specification's loss.
-/
import proofs.«406120_j72567767433948_2_alg».proof.Proof.RowValue
import Idealize.ShloMosaic.Lib.StableHlo.Run

set_option maxRecDepth 16384

noncomputable section

namespace Cert.KernelIdeal.Final

open Cert.KernelIdeal Cert.KernelIdeal.Gen Cert.KernelIdeal.Blocks Cert.KernelIdeal.Fold Cert.KernelIdeal.RowValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output window's printed index map over the 32 points: block (core, 0). -/
theorem idx5 : ∀ t : Fin cfg0.N, win0_5.index t 0 = t.val / 16 ∧ win0_5.index t 1 = 0 :=
  (by decide +kernel : ∀ t : Fin grid0.N, _)

/-- Core q's total: its running sum after its 16 blocks. -/
def tot (c : Dev nD) (q : ℕ) : EReal := Cert.Nca.acc (fun k => BLn m c (q * 16 + k)) 15

/-- The output array after the run: entry (row, lane) is the total of core row / 8. -/
abbrev G (c : Dev nD) : Buf (Elt Ideal) ((c : Thread nD τ).loc main_v10) :=
  fun (i : S16x128.Idx) => tot m c ((i 0).val / 8)

/-- What a write-back writes is its block of `G`. -/
theorem flushed_eq (c : Dev nD) (t : Fin cfg0.N) (hf : (cfg0.win 5).flush t = true) :
    (dats m 0 c).flushed 5 t = ((cfg0.win 5).blk t).view.read (Elt Ideal) (G m c) := by
  have h15 : t.val % 16 = 15 := (flush0_5 t).mp hf
  obtain ⟨i0, i1⟩ := idx5 t
  show (cfg0.win 5).cut (grid0.coords t) ((dats m 0 c).after 5 t) = _
  rw [after0_5]
  funext y
  show ((outsAt0 m c t.val t.isLt).1 : FVec Ideal S8x128 .f32) y = G m c (((cfg0.win 5).blk t).view.emb y)
  rw [out_eq m c t h15 y]
  have hy : (y 0).val < 8 := (y 0).isLt
  have he : ((((cfg0.win 5).blk t).view.emb y) 0).val = win0_5.index t 0 * 8 + 1 * (y 0).val := rfl
  show _ = tot m c (((((cfg0.win 5).blk t).view.emb y) 0).val / 8)
  rw [he, i0]
  have e : (t.val / 16 * 8 + 1 * (y 0).val) / 8 = t.val / 16 := by omega
  rw [e]
  rfl

/-- An index of the output is in point `t`'s block iff each coordinate is in the block's range. -/
theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v10).slice (win0_5.rect t)).set ↔ _
  rw [View.set_slice_whole, Rect.mem_set_unit]
  exact Iff.rfl

/-- THE OUTPUT ARRAY after the run. -/
theorem final5 (c : Dev nD) : (dats m 0 c).arrAt 5 cfg0.N = G m c :=
  (dats m 0 c).arrAt_eq_of_cover 5 (G m c) (flushed_eq m c) fun i => by
    have hN : cfg0.N = 32 := N_0
    have hi0 : (i 0).val < 16 := (i 0).isLt
    have hi1 : (i 1).val < 128 := (i 1).isLt
    have hlt : (i 0).val / 8 * 16 + 15 < cfg0.N := by omega
    obtain ⟨e0, e1⟩ := idx5 ⟨(i 0).val / 8 * 16 + 15, hlt⟩
    have e0' : win0_5.index ⟨(i 0).val / 8 * 16 + 15, hlt⟩ 0 = (i 0).val / 8 := by
      rw [e0]; show ((i 0).val / 8 * 16 + 15) / 16 = _; omega
    refine ⟨⟨(i 0).val / 8 * 16 + 15, hlt⟩, (flush0_5 _).mpr (by show ((i 0).val / 8 * 16 + 15) % 16 = 15; omega), ?_⟩
    rw [mem_blk5]
    intro a
    match a with
    | ⟨0, _⟩ =>
      show win0_5.index ⟨(i 0).val / 8 * 16 + 15, hlt⟩ 0 * 8 ≤ (i 0).val ∧ (i 0).val < win0_5.index ⟨(i 0).val / 8 * 16 + 15, hlt⟩ 0 * 8 + 8
      rw [e0']; omega
    | ⟨1, _⟩ =>
      show win0_5.index ⟨(i 0).val / 8 * 16 + 15, hlt⟩ 1 * 128 ≤ (i 1).val ∧ (i 1).val < win0_5.index ⟨(i 0).val / 8 * 16 + 15, hlt⟩ 1 * 128 + 128
      rw [e1]; omega

/-- The output at an index whose row's quotient by 8 is q holds core q's total. -/
theorem G_of_row (c : Dev nD) (i : S16x128.Idx) (q : ℕ) (hq : (i 0).val / 8 = q) : G m c i = tot m c q := by
  show tot m c ((i 0).val / 8) = _
  rw [hq]

/-- A one-entry slice of the output at offset (r, ·) holds the total of core r / 8: a [1,1] index has both coordinates 0,
    so the slice reads row r. -/
theorem slice_row (c : Dev nD) (off : Fin 2 → Nat) (h : S16x128.Slices off S1x1) (y : S1x1.Idx) (q : ℕ) (hq : off 0 / 8 = q) :
    extractStridedSlice S1x1 off (G m c) h y = tot m c q := by
  have hy : ∀ a : Fin S1x1.rank, (y a).val = 0 := fun a => by
    have h1 := (y a).isLt
    have e : S1x1.size a = 1 := by match a with | ⟨0, _⟩ => rfl | ⟨1, _⟩ => rfl
    omega
  unfold extractStridedSlice
  refine G_of_row m c _ q ?_
  dsimp only
  rw [hy, Nat.add_zero]
  exact hq

section Tail

-- a core's total is a closed sum of fifteen additions: nothing below opens it
attribute [local irreducible] tot

/-- The scalar the host computes after the region: entry (0, 0) plus entry (8, 0) of the output, the two cores' totals. -/
theorem result_eq (c : Dev nD) :
    Pipeline.afterTail₀ cfgs (dats m) 0 (V0 m) [hostOps1] c main_v15 = fun _ => tot m c 0 + tot m c 1 := by
  have hw : Pipeline.withArrays (cfgs 0).spec c (V0 m c) (fun w => (dats m 0 c).arrAt w (cfgs 0).N) (Proc.devRef .tc main_v10)
      = G m c := (Pipeline.withArrays_arr spec0 launch0.win.arr_inj c _ _ 5).trans (final5 m c)
  unfold Pipeline.afterTail₀
  show StableHlo.after hostOps1 _ (Proc.devRef .tc main_v15) = _
  after_results
  rw [hw]
  funext x
  show (shapeCast S_ (extractStridedSlice S1x1 ![0, 0] (G m c) slices_S16x128_S1x1_0_0) shapeCasts_S1x1_S_ x : EReal)
      + (shapeCast S_ (extractStridedSlice S1x1 ![8, 0] (G m c) slices_S16x128_S1x1_8_0) shapeCasts_S1x1_S_ x : EReal)
      = tot m c 0 + tot m c 1
  unfold shapeCast
  rw [slice_row m c ![0, 0] _ _ 0 (by decide), slice_row m c ![8, 0] _ _ 1 (by decide)]

end Tail

/-- The batch's rows read off the launch memory (no host operation before the region writes the feature array). -/
theorem X_eq (c : Dev nD) :
    X m c = fun b k => (m ((c : Thread nD τ).loc main_arg0) : S131072x512.Idx → EReal) (ix2 b k) :=
  funext fun b => funext fun k => congrFun (V_main_arg0 m c) (ix2 b k)

/-- THE KERNEL'S RUN, READ: with every label a class, every weakly fair execution ends with the result at the
    specification's loss of the three arguments, the arguments unchanged. -/
theorem run (hl : ∀ (c : Dev nD) (b : Fin 131072), lab m c b < 45) :
    θ_run defs (onTc (τ := τ) (main (F := Ideal))) ⟨m, fun _ => 0, ρ⟩ fun r => ∀ c : Dev nD,
      r.2.mem ((c.tc : Thread nD τ).loc main_v15)
          = (fun _ => Cert.Nca.total
              (fun b k => (m ((c : Thread nD τ).loc main_arg0) : S131072x512.Idx → EReal) (ix2 b k)) (P m c) (lab m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans
        ((result_eq m c).trans (funext fun _ => by
          have e := cores_total m c (hl c)
          rw [X_eq] at e
          unfold tot
          simp only [Nat.zero_mul, Nat.one_mul]
          exact e)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.Final

end
-- ==== Proof.RefSide.lean ====
/-
  The reference's result, read: with every label a class, the scalar the reference returns is the specification's
  loss of the three arguments — its expanded squared distance, square root of the clamped value, exp of the negative,
  the labelled similarity taken by index, the sum of all 45 minus it, minus the log of the quotient, summed over rows.
-/
import proofs.«406120_j72567767433948_2_alg».proof.Proof.RefRead
import proofs.«406120_j72567767433948_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefSide

open Cert.ReferenceIdeal Cert.ReferenceIdeal.Gen Idealize.ShloMosaic Idealize.ShloMosaic.TcCoe Idealize.ShloMosaic.ValueIdx Idealize.SL.Sem

/-! ## The similarity stage (operations %0 … %30) at an index -/

section Similarity

variable (x0 : (⟨S131072x512, .f32⟩ : BufTy).Contents (Elt Ideal)) (x2 : (⟨S45x512, .f32⟩ : BufTy).Contents (Elt Ideal))

/-- The row sum of squares of the features. -/
theorem sumsq_x (b : Fin 131072) : ReadP.val_main_v1 (F := Ideal) x0 (ix1 b) = ∑ k : Fin 512, x0 (ix2 b k) * x0 (ix2 b k) := by
  rw [ReadP.val_main_v1_apply]
  show Ideal.ofBits .f32 0x00000000#32 + _ = _
  rw [Ideal.ofBits_zero_f32, zero_add]
  refine Finset.sum_congr rfl fun k _ => ?_
  rw [ReadP.val_main_v0_apply]
  have e : ReadP.idx_main_v1 (ix1 b) k = ix2 b k := funext fun a => Fin.ext (by match a with | ⟨0, _⟩ => rfl | ⟨1, _⟩ => rfl)
  rw [e]; rfl

/-- The row sum of squares of the proxies. -/
theorem sumsq_p (j : Fin 45) : ReadP.val_main_v3 (F := Ideal) x2 (ix1 j) = ∑ k : Fin 512, x2 (ix2 j k) * x2 (ix2 j k) := by
  rw [ReadP.val_main_v3_apply]
  show Ideal.ofBits .f32 0x00000000#32 + _ = _
  rw [Ideal.ofBits_zero_f32, zero_add]
  refine Finset.sum_congr rfl fun k _ => ?_
  rw [ReadP.val_main_v2_apply]
  have e : ReadP.idx_main_v3 (ix1 j) k = ix2 j k := funext fun a => Fin.ext (by match a with | ⟨0, _⟩ => rfl | ⟨1, _⟩ => rfl)
  rw [e]; rfl

/-- The row sum of the features. -/
theorem sum_x (b : Fin 131072) : ReadP.val_main_v4 (F := Ideal) x0 (ix1 b) = ∑ k : Fin 512, x0 (ix2 b k) := by
  rw [ReadP.val_main_v4_apply]
  show Ideal.ofBits .f32 0x00000000#32 + _ = _
  rw [Ideal.ofBits_zero_f32, zero_add]
  refine Finset.sum_congr rfl fun k _ => ?_
  exact congrArg x0 (funext fun a => Fin.ext (by match a with | ⟨0, _⟩ => rfl | ⟨1, _⟩ => rfl))

/-- The row sum of the proxies. -/
theorem sum_p (j : Fin 45) : ReadP.val_main_v5 (F := Ideal) x2 (ix1 j) = ∑ k : Fin 512, x2 (ix2 j k) := by
  rw [ReadP.val_main_v5_apply]
  show Ideal.ofBits .f32 0x00000000#32 + _ = _
  rw [Ideal.ofBits_zero_f32, zero_add]
  refine Finset.sum_congr rfl fun k _ => ?_
  exact congrArg x2 (funext fun a => Fin.ext (by match a with | ⟨0, _⟩ => rfl | ⟨1, _⟩ => rfl))

/-- The inner product of a feature row and a proxy row. -/
theorem dot_xp (b : Fin 131072) (j : Fin 45) :
    ReadP.val_main_v7 (F := Ideal) x0 x2 (ix2 b j) = ∑ k : Fin 512, x0 (ix2 b k) * x2 (ix2 j k) := by
  rw [ReadP.val_main_v7_apply]
  refine Finset.sum_congr rfl fun k _ => ?_
  rw [ReadP.val_main_v6_apply]
  have el : ReadP.lidx_main_v7 (ix2 b j) k = ix2 b k := funext fun a => Fin.ext (by match a with | ⟨0, _⟩ => rfl | ⟨1, _⟩ => rfl)
  have er : ReadP.idx_main_v6 (ReadP.ridx_main_v7 (ix2 b j) k) = ix2 j k := funext fun a => Fin.ext (by match a with | ⟨0, _⟩ => rfl | ⟨1, _⟩ => rfl)
  rw [el, er]

/-- A per-row quantity broadcast over the proxies. -/
theorem bc_rows10 (b : Fin 131072) (j : Fin 45) : ReadP.val_main_v10 (F := Ideal) x0 (ix2 b j) = ReadP.val_main_v1 (F := Ideal) x0 (ix1 b) := by
  rw [ReadP.val_main_v10_apply, ReadP.val_main_v8_apply]
  exact congrArg _ (funext fun a => Fin.ext (by match a with | ⟨0, _⟩ => rfl))

theorem bc_cols11 (b : Fin 131072) (j : Fin 45) : ReadP.val_main_v11 (F := Ideal) x2 (ix2 b j) = ReadP.val_main_v3 (F := Ideal) x2 (ix1 j) := by
  rw [ReadP.val_main_v11_apply, ReadP.val_main_v9_apply]
  exact congrArg _ (funext fun a => Fin.ext (by match a with | ⟨0, _⟩ => rfl))

theorem bc_rows18 (b : Fin 131072) (j : Fin 45) : ReadP.val_main_v18 (F := Ideal) x0 (ix2 b j) = ReadP.val_main_v4 (F := Ideal) x0 (ix1 b) := by
  rw [ReadP.val_main_v18_apply, ReadP.val_main_v16_apply]
  exact congrArg _ (funext fun a => Fin.ext (by match a with | ⟨0, _⟩ => rfl))

theorem bc_cols19 (b : Fin 131072) (j : Fin 45) : ReadP.val_main_v19 (F := Ideal) x2 (ix2 b j) = ReadP.val_main_v5 (F := Ideal) x2 (ix1 j) := by
  rw [ReadP.val_main_v19_apply, ReadP.val_main_v17_apply]
  exact congrArg _ (funext fun a => Fin.ext (by match a with | ⟨0, _⟩ => rfl))

/-- The expanded squared distance (operation %25). -/
theorem d2_apply (b : Fin 131072) (j : Fin 45) :
    ReadP.val_main_v25 (F := Ideal) x0 x2 (ix2 b j) = Cert.Nca.d2 (fun k => x0 (ix2 b k)) (fun k => x2 (ix2 j k)) := by
  rw [ReadP.val_main_v25_apply, ReadP.val_main_v23_apply, ReadP.val_main_v15_apply, ReadP.val_main_v12_apply,
    ReadP.val_main_v14_apply, ReadP.val_main_v22_apply, ReadP.val_main_v20_apply, ReadP.val_main_v13_apply,
    ReadP.val_main_v21_apply, ReadP.val_main_v24_apply, bc_rows10, bc_cols11, bc_rows18, bc_cols19,
    sumsq_x, sumsq_p, sum_x, sum_p, dot_xp]
  rfl

/-- The similarity (operation %30): exp of minus the square root of the clamped squared distance. -/
theorem sim_apply (b : Fin 131072) (j : Fin 45) :
    ReadP.val_main_v30 (F := Ideal) x0 x2 (ix2 b j) = Cert.Nca.ee (fun k => x0 (ix2 b k)) (fun k => x2 (ix2 j k)) := by
  rw [ReadP.val_main_v30_apply, ReadP.val_main_v29_apply, ReadP.val_main_v28_apply, ReadP.val_main_v27_apply,
    ReadP.val_main_v26_apply, d2_apply]
  show Ideal.exp (-(Ideal.sqrt (max _ (Ideal.ofBits .f32 0x00000000#32)))) = _
  rw [Ideal.ofBits_zero_f32]
  rfl

end Similarity

/-! ## The labelled similarity (the gather of @take_along_axis) -/

section Gather

variable (x0 : (⟨S131072x512, .f32⟩ : BufTy).Contents (Elt Ideal)) (x1 : (⟨S131072, .i32⟩ : BufTy).Contents (Elt Ideal))
  (x2 : (⟨S45x512, .f32⟩ : BufTy).Contents (Elt Ideal))

/-- A word whose value is below 45 is not negative when read signed. -/
theorem not_neg_of_lt {w : BitVec 32} (hw : w.toNat < 45) : IntOp.cmpi .slt w 0#32 = 0#1 := by
  refine eq_zero_of_ne_one fun h => ?_
  exact Nat.not_lt_zero _ ((StableHlo.Predicate.slt_iff_toNat (a := w) (b := 0#32) (by omega) (by decide)).1 h)

/-- Every label is a class, at every index of the label vector. -/
theorem label_lt (hl : ∀ b : Fin 131072, (x1 (ix1 b)).toNat < 45) (i : S131072.Idx) : (x1 i).toNat < 45 :=
  (congrArg (fun z => (x1 z).toNat < 45) (eq_ix1 i)).mpr (hl (i 0))

theorem col_lt (hl : ∀ b : Fin 131072, (x1 (ix1 b)).toNat < 45) (i : S131072x1.Idx) :
    (ReadP.val_main_v31 (F := Ideal) x1 i).toNat < 45 := by
  rw [ReadP.val_main_v31_apply]; exact label_lt x1 hl _

/-- The wrap of negative indices leaves a class label as it is. -/
theorem wrap_eq (hl : ∀ b : Fin 131072, (x1 (ix1 b)).toNat < 45) (i : S131072x1.Idx) :
    ReadP.val_main_call0_v4 (F := Ideal) x1 i = ReadP.val_main_v31 (F := Ideal) x1 i := by
  rw [ReadP.val_main_call0_v4_apply, ReadP.val_main_call0_v1_apply, ReadP.val_main_call0_v0_apply,
    ReadP.val_main_call0_c_apply, not_neg_of_lt (col_lt x1 hl i), select_zero]

theorem start_lt (hl : ∀ b : Fin 131072, (x1 (ix1 b)).toNat < 45) (i : S131072x1x1.Idx) :
    (ReadP.val_main_call0_v5 (F := Ideal) x1 i).toNat < 45 := by
  rw [ReadP.val_main_call0_v5_apply, wrap_eq x1 hl]; exact col_lt x1 hl _

/-- The in-bounds mask is 1 everywhere. -/
theorem mask_one (hl : ∀ b : Fin 131072, (x1 (ix1 b)).toNat < 45) (i : S131072x1x1.Idx) :
    ReadP.val_main_call0_v11 (F := Ideal) x1 i = 1#1 := by
  have h := start_lt x1 hl i
  have h44 : (44#32 : BitVec 32).toNat = 44 := rfl
  rw [ReadP.val_main_call0_v11_apply, ReadP.val_main_call0_v7_apply, ReadP.val_main_call0_v10_apply,
    ReadP.val_main_call0_v6_apply, ReadP.val_main_call0_c_2_apply, ReadP.val_main_call0_v9_apply,
    ReadP.val_main_call0_v8_apply, ReadP.val_main_call0_c_1_apply,
    (StableHlo.Predicate.sge_iff_toNat (by omega) (by decide)).2 (Nat.zero_le _),
    (StableHlo.Predicate.sle_iff_toNat (by omega) (by decide)).2 (by omega)]
  rfl

/-- A left fold by `and` from 1 over ones is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- The mask reduced over its last (unit) axis is 1 everywhere. -/
theorem allmask_one (hl : ∀ b : Fin 131072, (x1 (ix1 b)).toNat < 45) (i : S131072x1.Idx) :
    ReadP.val_main_call0_v12 (F := Ideal) x1 i = 1#1 := by
  unfold ReadP.val_main_call0_v12
  rw [Host.reduce_eq_foldl, ReadP.val_main_call0_c_3_apply]
  exact foldl_andi_ones _ _ fun n _ => mask_one x1 hl n

end Gather

section GatherIdx

/-- The operand index the gather reads for row `b`, on the batching axis: row `b` itself. -/
theorem gather_opIdx0 (idx : IVec S131072x1x1 32) (b : Fin 131072) :
    (gather_S131072x45_S131072x1x1_S131072x1_n_1_0_0_1_2_11.operandIdx (ix2 b (0 : Fin 1)) idx (0 : Fin 2)).val = b.val := by
  show gather_S131072x45_S131072x1x1_S131072x1_n_1_0_0_1_2_11.start _ idx _ + gather_S131072x45_S131072x1x1_S131072x1_n_1_0_0_1_2_11.batchCoord _ _ + gather_S131072x45_S131072x1x1_S131072x1_n_1_0_0_1_2_11.offCoord _ _ = b.val
  rw [GatherDims.start_batching _ _ _ _ (by decide), GatherDims.offCoord_eq_zero _ _ _ (by decide), Nat.zero_add, Nat.add_zero]
  unfold GatherDims.batchCoord
  rw [dif_pos (by decide)]
  rfl

/-- … and on the collapsed axis: the start index read signed and clamped to [0, 44]. -/
theorem gather_opIdx1 (idx : IVec S131072x1x1 32) (b : Fin 131072) :
    (gather_S131072x45_S131072x1x1_S131072x1_n_1_0_0_1_2_11.operandIdx (ix2 b (0 : Fin 1)) idx (1 : Fin 2)).val
      = min (idx (ix3 b (0 : Fin 1) (0 : Fin 1))).toInt.toNat 44 := by
  show gather_S131072x45_S131072x1x1_S131072x1_n_1_0_0_1_2_11.start _ idx _ + gather_S131072x45_S131072x1x1_S131072x1_n_1_0_0_1_2_11.batchCoord _ _ + gather_S131072x45_S131072x1x1_S131072x1_n_1_0_0_1_2_11.offCoord _ _ = _
  rw [GatherDims.batchCoord_eq_zero _ _ _ (by decide), GatherDims.offCoord_eq_zero _ _ _ (by decide), Nat.add_zero]
  unfold GatherDims.start
  rw [dif_pos (by decide)]
  have hsi : ∀ c, gather_S131072x45_S131072x1x1_S131072x1_n_1_0_0_1_2_11.siIdx (ix2 b (0 : Fin 1)) c = ix3 b (0 : Fin 1) (0 : Fin 1) :=
    fun c => funext fun e => Fin.ext (by
      match e with
      | ⟨0, _⟩ => rfl
      | ⟨1, _⟩ => rfl
      | ⟨2, _⟩ =>
        have h1 : gather_S131072x45_S131072x1x1_S131072x1_n_1_0_0_1_2_11.startIndexMap.length = 1 := rfl
        have h2 := c.isLt
        show c.val = 0
        omega)
  rw [hsi]
  rfl

theorem gather_opIdx (idx : IVec S131072x1x1 32) (b : Fin 131072) :
    gather_S131072x45_S131072x1x1_S131072x1_n_1_0_0_1_2_11.operandIdx (ix2 b (0 : Fin 1)) idx
      = ix2 b (⟨min (idx (ix3 b (0 : Fin 1) (0 : Fin 1))).toInt.toNat 44, by omega⟩ : Fin 45) := by
  funext a
  match a with
  | ⟨0, _⟩ => exact Fin.ext (gather_opIdx0 idx b)
  | ⟨1, _⟩ => exact Fin.ext (gather_opIdx1 idx b)

end GatherIdx

/-! ## The rows and the total -/

section Rows

variable (x0 : (⟨S131072x512, .f32⟩ : BufTy).Contents (Elt Ideal)) (x1 : (⟨S131072, .i32⟩ : BufTy).Contents (Elt Ideal))
  (x2 : (⟨S45x512, .f32⟩ : BufTy).Contents (Elt Ideal))

/-- The start index of row `b` is its label. -/
theorem start_at (hl : ∀ b : Fin 131072, (x1 (ix1 b)).toNat < 45) (b : Fin 131072) :
    ReadP.val_main_call0_v5 (F := Ideal) x1 (ix3 b (0 : Fin 1) (0 : Fin 1)) = x1 (ix1 b) := by
  rw [ReadP.val_main_call0_v5_apply, wrap_eq x1 hl, ReadP.val_main_v31_apply]
  exact congrArg x1 (funext fun a => Fin.ext (by
    match a with
    | ⟨0, _⟩ =>
      show ((b.val * 1 + 0) * 1 + 0) / 1 = b.val
      omega))

/-- The gathered value is the similarity at the row's label. -/
theorem gathered (hl : ∀ b : Fin 131072, (x1 (ix1 b)).toNat < 45) (b : Fin 131072) :
    ReadP.val_main_call0_v13 (F := Ideal) x0 x1 x2 (ix2 b (0 : Fin 1))
      = ReadP.val_main_v30 (F := Ideal) x0 x2 (ix2 b (⟨(x1 (ix1 b)).toNat, hl b⟩ : Fin 45)) := by
  show ReadP.val_main_v30 (F := Ideal) x0 x2 (gather_S131072x45_S131072x1x1_S131072x1_n_1_0_0_1_2_11.operandIdx (ix2 b (0 : Fin 1))
    (ReadP.val_main_call0_v5 (F := Ideal) x1)) = _
  rw [gather_opIdx]
  refine congrArg (fun q : Fin 45 => ReadP.val_main_v30 (F := Ideal) x0 x2 (ix2 b q)) (Fin.ext ?_)
  show min (ReadP.val_main_call0_v5 (F := Ideal) x1 (ix3 b (0 : Fin 1) (0 : Fin 1))).toInt.toNat 44 = (x1 (ix1 b)).toNat
  have h := hl b
  rw [start_at x1 hl b, StableHlo.Predicate.toInt_eq_toNat_of_lt (by omega)]
  omega

/-- The labelled similarity of row `b` (operation %33). -/
theorem picked (hl : ∀ b : Fin 131072, (x1 (ix1 b)).toNat < 45) (b : Fin 131072) :
    ReadP.val_main_v33 (F := Ideal) x0 x1 x2 (ix1 b)
      = Cert.Nca.pick (fun j => Cert.Nca.ee (fun k => x0 (ix2 b k)) (fun k => x2 (ix2 j k))) (x1 (ix1 b)).toNat := by
  rw [ReadP.val_main_v33_apply]
  have e : ReadP.idx_main_v33 (ix1 b) = ix2 b (0 : Fin 1) := funext fun a => Fin.ext (by
    match a with
    | ⟨0, _⟩ => exact Nat.div_one _
    | ⟨1, _⟩ => rfl)
  rw [e, ReadP.val_main_v32_apply, allmask_one x1 hl, select_one, gathered x0 x1 x2 hl b, sim_apply]
  unfold Cert.Nca.pick
  rw [dif_pos (hl b)]

/-- The sum of a row's 45 similarities (operation %34). -/
theorem sum_sim (b : Fin 131072) :
    ReadP.val_main_v34 (F := Ideal) x0 x2 (ix1 b) = ∑ j : Fin 45, Cert.Nca.ee (fun k => x0 (ix2 b k)) (fun k => x2 (ix2 j k)) := by
  rw [ReadP.val_main_v34_apply]
  show Ideal.ofBits .f32 0x00000000#32 + _ = _
  rw [Ideal.ofBits_zero_f32, zero_add]
  refine Finset.sum_congr rfl fun j _ => ?_
  have e : ReadP.idx_main_v34 (ix1 b) j = ix2 b j := funext fun a => Fin.ext (by match a with | ⟨0, _⟩ => rfl | ⟨1, _⟩ => rfl)
  rw [e, sim_apply]

/-- One row's contribution (operation %38). -/
theorem row_apply (hl : ∀ b : Fin 131072, (x1 (ix1 b)).toNat < 45) (b : Fin 131072) :
    ReadP.val_main_v38 (F := Ideal) x0 x1 x2 (ix1 b)
      = Cert.Nca.rowLoss (fun j => Cert.Nca.ee (fun k => x0 (ix2 b k)) (fun k => x2 (ix2 j k))) (x1 (ix1 b)).toNat := by
  rw [ReadP.val_main_v38_apply, ReadP.val_main_v37_apply, ReadP.val_main_v36_apply, ReadP.val_main_v35_apply,
    picked x0 x1 x2 hl b, sum_sim x0 x2 b]
  rfl

end Rows

/-- The reference's result is the specification's loss, when every label is a class. -/
theorem ref_total (m : (ℓ : Loc nD τ sig) → Buf (Elt Ideal) ℓ) (c : Dev nD)
    (hl : ∀ b : Fin 131072, ((m ((c.tc : Thread nD τ).loc main_arg1) : S131072.Idx → BitVec 32) (ix1 b)).toNat < 45) :
    Cert.ReferenceIdeal.ValueP.res_out0 (F := Ideal) m c
      = fun _ => Cert.Nca.total
          (fun b k => (m ((c.tc : Thread nD τ).loc main_arg0) : S131072x512.Idx → EReal) (ix2 b k))
          (fun j k => (m ((c.tc : Thread nD τ).loc main_arg2) : S45x512.Idx → EReal) (ix2 j k))
          (fun b => ((m ((c.tc : Thread nD τ).loc main_arg1) : S131072.Idx → BitVec 32) (ix1 b)).toNat) := by
  refine (ReadP.val_main_v39_eq (F := Ideal) m c).trans (funext fun i => ?_)
  rw [ReadP.val_main_v39_apply]
  show Ideal.ofBits .f32 0x00000000#32 + _ = _
  rw [Ideal.ofBits_zero_f32, zero_add]
  unfold Cert.Nca.total
  exact (Fintype.sum_equiv (⟨ix1, fun i => i 0, fun _ => rfl, fun i => (eq_ix1 i).symm⟩ : Fin 131072 ≃ S131072.Idx) _ _
    fun b => (row_apply _ _ _ hl b).symm).symm

end Cert.ReferenceIdeal.RefSide

end
-- ==== Proof.PreDecode.lean ====
/-
  The precondition read: its last conjunct says every label is a class, 0 ≤ label < 45 as a signed word, which for a
  32-bit word is: its unsigned value is below 45.
-/
import proofs.«406120_j72567767433948_2_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

/-- A 32-bit word that tests nonnegative and below 45 as a signed word has unsigned value below 45: a nonnegative signed
    reading means the top bit is clear, so the signed and the unsigned readings agree, and the second test bounds them. -/
private theorem toNat_lt_of_signed (w : BitVec 32)
    (h0 : IntOp.cmpi .sge w 0#32 = 1#1) (h1 : IntOp.cmpi .slt w 45#32 = 1#1) : w.toNat < 45 := by
  rw [IntOp.cmpi_sge] at h0
  rw [IntOp.cmpi_slt] at h1
  have z : (0#32 : BitVec 32).toInt = 0 := by decide
  have f : (45#32 : BitVec 32).toInt = 45 := by decide
  rw [z] at h0; rw [f] at h1
  have hw : 2 * w.toNat < 2 ^ 32 := BitVec.toInt_pos_iff.1 h0
  rw [BitVec.toInt_eq_toNat_of_lt hw] at h1
  omega

/-- Under the precondition every label's unsigned value is below 45. -/
theorem label_lt [Facts] (x : FVec Ideal S131072x512 .f32) (l : IVec S131072 32) (p : FVec Ideal S45x512 .f32)
    (h : fn (F := Ideal) x l p = fun _ => 1#1) (b : Fin 131072) : (l (ix1 b)).toNat < 45 := by
  -- the rank-0 result has exactly one index
  haveI : Subsingleton S_.Idx := ⟨fun a b => funext fun d => d.elim0⟩
  -- the precondition at its one index: a conjunction of three bits whose last is the conjunction over all labels
  have e := congrFun h ValueIdx.ix0
  dsimp only [fn] at e
  have e14 : Host.reduce IntOp.andi
        (andi (cmpi CmpIPredicate.sge l (broadcastInDim S131072 ![] Facts.bcast_S_S131072 (constantI S_ 32 0#32)))
          (cmpi CmpIPredicate.slt l (broadcastInDim S131072 ![] Facts.bcast_S_S131072 (constantI S_ 32 45#32))))
        (constantI S_ 1 1#1) Facts.reducesTo_S131072_S_d0 Facts.h_S_ ix0 = 1#1 := (IntOp.andi_eq_one.1 e).2
  -- a conjunction over all labels that is 1 is 1 at label b
  have el := Host.reduce_andi_all _ _ _ _ ix0 e14 (ix1 b)
  -- at label b the two broadcast constants read 0 and 45, and the elementwise operations are the word operations
  have el' : IntOp.andi (IntOp.cmpi .sge (l (ix1 b)) 0#32) (IntOp.cmpi .slt (l (ix1 b)) 45#32) = 1#1 := el
  obtain ⟨h0, h1⟩ := IntOp.andi_eq_one.1 el'
  exact toNat_lt_of_signed _ h0 h1

end Cert.Pre_finite_inputs.Decode

end
-- ==== Proof.lean ====
/-
  The certificate of the proxy-NCA loss kernel against its jnp reference, over the extended reals.

  Both programs compute, for 131072 feature rows x_b with labels l_b and 45 proxy rows p_j,
      ∑_b −log ( e_{b,l_b} / (∑_j e_{b,j} − e_{b,l_b}) ),   e_{b,j} = exp (−√(max (d2 x_b p_j) 0)),
  with the same expanded squared distance d2 (the same three literals on both sides). They differ in arrangement
  only. The kernel pads the proxy table to 128 lanes, masks the lanes from 45 on, takes the labelled similarity as the
  lanes' sum with the others zeroed and the denominator as the sum with the labelled lane zeroed, and accumulates the
  rows' terms per core over 16 blocks of 4096 rows, adding the two cores' totals at the end; the reference gathers the
  labelled similarity and subtracts it from the sum of all 45. The two denominators agree because a similarity is a
  real number (x + y − y = x needs y finite); the rest is associativity and commutativity of +. The labels must be
  classes, 0 ≤ l < 45: the precondition says so, and outside that range the two programs differ.

  The frames of the two kernel programs are the generated ones; the reference's frame is its run with the result
  dropped; the idealization rewrote nothing.
-/
import proofs.«406120_j72567767433948_2_alg».proof.Defs
import proofs.«406120_j72567767433948_2_alg».proof.Proof.Gen.Kernel
import proofs.«406120_j72567767433948_2_alg».proof.Proof.Gen.Kernel.Skeleton
import proofs.«406120_j72567767433948_2_alg».proof.Proof.Gen.Kernel.Launch
import proofs.«406120_j72567767433948_2_alg».proof.Proof.Gen.Kernel.Points
import proofs.«406120_j72567767433948_2_alg».proof.Proof.Gen.Kernel.Frame
import proofs.«406120_j72567767433948_2_alg».proof.Proof.Gen.KernelIdeal
import proofs.«406120_j72567767433948_2_alg».proof.Proof.Gen.KernelIdeal.Skeleton
import proofs.«406120_j72567767433948_2_alg».proof.Proof.Gen.KernelIdeal.Launch
import proofs.«406120_j72567767433948_2_alg».proof.Proof.Gen.KernelIdeal.Points
import proofs.«406120_j72567767433948_2_alg».proof.Proof.Gen.KernelIdeal.Frame
import proofs.«406120_j72567767433948_2_alg».proof.Proof.Gen.ReferenceIdeal
import proofs.«406120_j72567767433948_2_alg».proof.Proof.Gen.Pre_finite_inputs
import proofs.«406120_j72567767433948_2_alg».proof.Proof.Final
import proofs.«406120_j72567767433948_2_alg».proof.Proof.RefSide
import proofs.«406120_j72567767433948_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Under the precondition every label is a class; then the kernel's result and the reference's are both the
    specification's loss of arguments that agree. -/
theorem algebraic : Cert.algebraic_KernelIdeal_ReferenceIdeal := by
  intro m ρ m' ρ' hpre hagree
  have hl : ∀ (c : Dev Cert.KernelIdeal.nD) (b : Fin 131072), Cert.KernelIdeal.RowValue.lab m c b < 45 :=
    fun c b => Cert.Pre_finite_inputs.Decode.label_lt _ _ _ (hpre c) b
  refine ⟨_, Cert.KernelIdeal.Final.run m ρ hl, ?_⟩
  refine (θ_run Cert.ReferenceIdeal.defs _ _).mono (fun _ h c => ⟨(h c).1.trans ?_, (h c).2⟩)
    (Cert.ReferenceIdeal.ValueP.run (F := Ideal) m' ρ')
  have hl' : ∀ b : Fin 131072,
      ((m' ((c.tc : Thread Cert.ReferenceIdeal.nD Cert.ReferenceIdeal.τ).loc Cert.ReferenceIdeal.main_arg1) : Cert.ReferenceIdeal.S131072.Idx → BitVec 32) (ix1 b)).toNat < 45 :=
    fun b => by rw [(hagree c).2.1]; exact hl c b
  refine (Cert.ReferenceIdeal.RefSide.ref_total m' c hl').trans ?_
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
